-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x12800000 : Shape := ⟨2, ![2, 12800000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x1 .f32) (main_arg1 : IVec S2x12800000 32) (main_arg2 : FVec F S1x16 .f32) (main_arg3 : FVec F S16 .f32) (main_arg4 : FVec F S16x1 .f32) (main_arg5 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S200000x1 : Shape := ⟨2, ![200000, 1]⟩
abbrev S2x12800000 : Shape := ⟨2, ![2, 12800000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S200000 : Shape := ⟨1, ![200000]⟩
abbrev S1x12800000 : Shape := ⟨2, ![1, 12800000]⟩
abbrev S12800000 : Shape := ⟨1, ![12800000]⟩
abbrev S13000000 : Shape := ⟨1, ![13000000]⟩
abbrev S_ : Shape := ⟨0, ![]⟩
abbrev S13000000x1 : Shape := ⟨2, ![13000000, 1]⟩
abbrev S1x13000000 : Shape := ⟨2, ![1, 13000000]⟩
abbrev S1x13041664 : Shape := ⟨2, ![1, 13041664]⟩
abbrev S13041664 : Shape := ⟨1, ![13041664]⟩
abbrev S1x200000 : Shape := ⟨2, ![1, 200000]⟩
abbrev S16x200000 : Shape := ⟨2, ![16, 200000]⟩
abbrev S16x13000000 : Shape := ⟨2, ![16, 13000000]⟩
abbrev S16x13041664 : Shape := ⟨2, ![16, 13041664]⟩
abbrev S16x65536 : Shape := ⟨2, ![16, 65536]⟩
abbrev S1x65536 : Shape := ⟨2, ![1, 65536]⟩
abbrev S13041664x1 : Shape := ⟨2, ![13041664, 1]⟩

abbrev nBuf : Space → Nat
  | .hbm => 109
  | .vmem => 12
  | .smem => 0
  | _ => 0

abbrev bufTy : (tb : Table) → Fin (tcTables nBuf tb) → BufTy
  | .hbm, ⟨0, _⟩ => ⟨S200000x1, .f32⟩
  | .hbm, ⟨1, _⟩ => ⟨S2x12800000, .i32⟩
  | .hbm, ⟨2, _⟩ => ⟨S1x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S200000, .i32⟩
  | .hbm, ⟨7, _⟩ => ⟨S1x12800000, .i32⟩
  | .hbm, ⟨8, _⟩ => ⟨S12800000, .i32⟩
  | .hbm, ⟨9, _⟩ => ⟨S13000000, .i32⟩
  | .hbm, ⟨10, _⟩ => ⟨S1x12800000, .i32⟩
  | .hbm, ⟨11, _⟩ => ⟨S12800000, .i32⟩
  | .hbm, ⟨12, _⟩ => ⟨S13000000, .i32⟩
  | .hbm, ⟨13, _⟩ => ⟨S_, .f32⟩
  | .hbm, ⟨14, _⟩ => ⟨S13000000, .f32⟩
  | .hbm, ⟨15, _⟩ => ⟨S_, .f32⟩
  | .hbm, ⟨16, _⟩ => ⟨S200000, .f32⟩
  | .hbm, ⟨17, _⟩ => ⟨S13000000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S13000000, .i32⟩
  | .hbm, ⟨29, _⟩ => ⟨S13000000, .i1⟩
  | .hbm, ⟨30, _⟩ => ⟨S_, .i32⟩
  | .hbm, ⟨31, _⟩ => ⟨S13000000, .i32⟩
  | .hbm, ⟨32, _⟩ => ⟨S13000000, .i32⟩
  | .hbm, ⟨33, _⟩ => ⟨S13000000, .i32⟩
  | .hbm, ⟨34, _⟩ => ⟨S13000000x1, .i32⟩
  | .hbm, ⟨35, _⟩ => ⟨S13000000, .f32⟩
  | .hbm, ⟨36, _⟩ => ⟨S_, .i32⟩
  | .hbm, ⟨37, _⟩ => ⟨S13000000, .i32⟩
  | .hbm, ⟨38, _⟩ => ⟨S13000000, .i1⟩
  | .hbm, ⟨39, _⟩ => ⟨S_, .i32⟩
  | .hbm, ⟨40, _⟩ => ⟨S13000000, .i32⟩
  | .hbm, ⟨41, _⟩ => ⟨S13000000, .i32⟩
  | .hbm, ⟨42, _⟩ => ⟨S13000000, .i32⟩
  | .hbm, ⟨43, _⟩ => ⟨S13000000x1, .i32⟩
  | .hbm, ⟨44, _⟩ => ⟨S13000000, .f32⟩
  | .hbm, ⟨45, _⟩ => ⟨S13000000, .f32⟩
  | .hbm, ⟨46, _⟩ => ⟨S1x13000000, .f32⟩
  | .hbm, ⟨47, _⟩ => ⟨S_, .i32⟩
  | .hbm, ⟨48, _⟩ => ⟨S_, .f32⟩
  | .hbm, ⟨49, _⟩ => ⟨S1x13041664, .f32⟩
  | .hbm, ⟨50, _⟩ => ⟨S_, .i32⟩
  | .hbm, ⟨51, _⟩ => ⟨S_, .i32⟩
  | .hbm, ⟨52, _⟩ => ⟨S13041664, .i32⟩
  | .hbm, ⟨53, _⟩ => ⟨S1x200000, .f32⟩
  | .hbm, ⟨54, _⟩ => ⟨S16x1, .f32⟩
  | .hbm, ⟨55, _⟩ => ⟨S16x200000, .f32⟩
  | .hbm, ⟨56, _⟩ => ⟨S16x200000, .f32⟩
  | .hbm, ⟨57, _⟩ => ⟨S16x200000, .f32⟩
  | .hbm, ⟨58, _⟩ => ⟨S_, .i32⟩
  | .hbm, ⟨59, _⟩ => ⟨S13000000, .i32⟩
  | .hbm, ⟨60, _⟩ => ⟨S13000000, .i1⟩
  | .hbm, ⟨61, _⟩ => ⟨S_, .i32⟩
  | .hbm, ⟨62, _⟩ => ⟨S13000000, .i32⟩
  | .hbm, ⟨63, _⟩ => ⟨S13000000, .i32⟩
  | .hbm, ⟨64, _⟩ => ⟨S13000000, .i32⟩
  | .hbm, ⟨65, _⟩ => ⟨S13000000x1, .i32⟩
  | .hbm, ⟨66, _⟩ => ⟨S16x13000000, .f32⟩
  | .hbm, ⟨67, _⟩ => ⟨S_, .i32⟩
  | .hbm, ⟨68, _⟩ => ⟨S_, .f32⟩
  | .hbm, ⟨69, _⟩ => ⟨S16x13041664, .f32⟩
  | .hbm, ⟨70, _⟩ => ⟨S16x13041664, .f32⟩
  | .hbm, ⟨71, _⟩ => ⟨S_, .f32⟩
  | .hbm, ⟨72, _⟩ => ⟨S200000, .f32⟩
  | .hbm, ⟨73, _⟩ => ⟨S13041664x1, .i32⟩
  | .hbm, ⟨74, _⟩ => ⟨S16x200000, .f32⟩
  | .hbm, ⟨75, _⟩ => ⟨S16x200000, .f32⟩
  | .hbm, ⟨76, _⟩ => ⟨S16x1, .f32⟩
  | .hbm, ⟨77, _⟩ => ⟨S16x200000, .f32⟩
  | .hbm, ⟨78, _⟩ => ⟨S16x200000, .f32⟩
  | .hbm, ⟨79, _⟩ => ⟨S_, .f32⟩
  | .hbm, ⟨80, _⟩ => ⟨S16x200000, .f32⟩
  | .hbm, ⟨81, _⟩ => ⟨S16x200000, .f32⟩
  | .hbm, ⟨82, _⟩ => ⟨S16x200000, .f32⟩
  | .hbm, ⟨83, _⟩ => ⟨S16x200000, .f32⟩
  | .hbm, ⟨84, _⟩ => ⟨S_, .f32⟩
  | .hbm, ⟨85, _⟩ => ⟨S200000, .f32⟩
  | .hbm, ⟨86, _⟩ => ⟨S1x200000, .f32⟩
  | .hbm, ⟨87, _⟩ => ⟨S_, .i32⟩
  | .hbm, ⟨88, _⟩ => ⟨S13000000, .i32⟩
  | .hbm, ⟨89, _⟩ => ⟨S13000000, .i1⟩
  | .hbm, ⟨90, _⟩ => ⟨S_, .i32⟩
  | .hbm, ⟨91, _⟩ => ⟨S13000000, .i32⟩
  | .hbm, ⟨92, _⟩ => ⟨S13000000, .i32⟩
  | .hbm, ⟨93, _⟩ => ⟨S13000000, .i32⟩
  | .hbm, ⟨94, _⟩ => ⟨S13000000x1, .i32⟩
  | .hbm, ⟨95, _⟩ => ⟨S1x13000000, .f32⟩
  | .hbm, ⟨96, _⟩ => ⟨S_, .i32⟩
  | .hbm, ⟨97, _⟩ => ⟨S_, .f32⟩
  | .hbm, ⟨98, _⟩ => ⟨S1x13041664, .f32⟩
  | .hbm, ⟨99, _⟩ => ⟨S1x13041664, .f32⟩
  | .hbm, ⟨100, _⟩ => ⟨S13041664, .f32⟩
  | .hbm, ⟨101, _⟩ => ⟨S_, .f32⟩
  | .hbm, ⟨102, _⟩ => ⟨S200000, .f32⟩
  | .hbm, ⟨103, _⟩ => ⟨S13041664x1, .i32⟩
  | .hbm, ⟨104, _⟩ => ⟨S200000, .f32⟩
  | .hbm, ⟨105, _⟩ => ⟨S_, .f32⟩
  | .hbm, ⟨106, _⟩ => ⟨S200000, .f32⟩
  | .hbm, ⟨107, _⟩ => ⟨S200000, .f32⟩
  | .hbm, ⟨108, _⟩ => ⟨S200000x1, .f32⟩
  | .local _ .vmem, ⟨0, _⟩ => ⟨S16x65536, .f32⟩
  | .local _ .vmem, ⟨1, _⟩ => ⟨S16x65536, .f32⟩
  | .local _ .vmem, ⟨2, _⟩ => ⟨S1x65536, .f32⟩
  | .local _ .vmem, ⟨3, _⟩ => ⟨S1x65536, .f32⟩
  | .local _ .vmem, ⟨4, _⟩ => ⟨S16x65536, .f32⟩
  | .local _ .vmem, ⟨5, _⟩ => ⟨S16x65536, .f32⟩
  | .local _ .vmem, ⟨6, _⟩ => ⟨S1x65536, .f32⟩
  | .local _ .vmem, ⟨7, _⟩ => ⟨S1x65536, .f32⟩
  | .local _ .vmem, ⟨8, _⟩ => ⟨S1x65536, .f32⟩
  | .local _ .vmem, ⟨9, _⟩ => ⟨S1x65536, .f32⟩
  | .local _ .vmem, ⟨10, _⟩ => ⟨S1x65536, .f32⟩
  | .local _ .vmem, ⟨11, _⟩ => ⟨S1x65536, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_call1_v0 : Ref sig .tc := ⟨.hbm, 48, rfl⟩
abbrev main_v31 : Ref sig .tc := ⟨.hbm, 49, rfl⟩
abbrev main_c_7 : Ref sig .tc := ⟨.hbm, 50, rfl⟩
abbrev main_call2_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_call3_v0 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call4_cst : Ref sig .tc := ⟨.hbm, 79, rfl⟩
abbrev main_call4_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_call5_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![199], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![199], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x65536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x12800000_S1x12800000_0_0 : S2x12800000.Slices ![0, 0] S1x12800000
  shapeCasts_S1x12800000_S12800000 : S1x12800000.ShapeCasts S12800000
  concatenates_S12800000_S200000_S13000000_d0 : Shape.Concatenates [S12800000, S200000] S13000000 0
  slices_S2x12800000_S1x12800000_1_0 : S2x12800000.Slices ![1, 0] S1x12800000
  bcast_S_S13000000 : S_.BroadcastsInDim S13000000 (![] : Fin 0 → Fin S13000000.rank)
  bcast_S_S200000 : S_.BroadcastsInDim S200000 (![] : Fin 0 → Fin S200000.rank)
  bcast_S13000000_S13000000x1_0 : S13000000.BroadcastsInDim S13000000x1 (![0] : Fin 1 → Fin S13000000x1.rank)
  shapeCasts_S13000000_S1x13000000 : S13000000.ShapeCasts S1x13000000
  pads_S1x13000000_S1x13041664_000_0416640 : S1x13000000.Pads (![0, 0] : Fin 2 → Nat) ![0, 41664] ![0, 0] S1x13041664
  h_S_ : 0 < S_.numel
  pads_S13000000_S13041664_0416640 : S13000000.Pads (![0] : Fin 1 → Nat) ![41664] ![0] S13041664
  shapeCasts_S200000x1_S1x200000 : S200000x1.ShapeCasts S1x200000
  transposes_S1x16_S16x1_1_0 : S1x16.Transposes [1, 0] S16x1
  bcast_S16x1_S16x200000_0_1 : S16x1.BroadcastsInDim S16x200000 (![0, 1] : Fin 2 → Fin S16x200000.rank)
  bcast_S1x200000_S16x200000_0_1 : S1x200000.BroadcastsInDim S16x200000 (![0, 1] : Fin 2 → Fin S16x200000.rank)
  pads_S16x13000000_S16x13041664_000_0416640 : S16x13000000.Pads (![0, 0] : Fin 2 → Nat) ![0, 41664] ![0, 0] S16x13041664
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  broadcasts_S1x65536_S16x65536 : S1x65536.Broadcasts S16x65536
  inb_S16x65536_S16x65536_0_0 : ∀ a, (![0, 0] : Fin 2 → Nat) a + S16x65536.size a ≤ S16x65536.size a
  h_S16x65536 : 0 < S16x65536.numel
  shapeCasts_S16x65536_S16x65536 : S16x65536.ShapeCasts S16x65536
  bcast_S13041664_S13041664x1_0 : S13041664.BroadcastsInDim S13041664x1 (![0] : Fin 1 → Fin S13041664x1.rank)
  bcast_S200000_S16x200000_1 : S200000.BroadcastsInDim S16x200000 (![1] : Fin 1 → Fin S16x200000.rank)
  shapeCasts_S16_S16x1 : S16.ShapeCasts S16x1
  bcast_S_S16x200000 : S_.BroadcastsInDim S16x200000 (![] : Fin 0 → Fin S16x200000.rank)
  reducesTo_S16x200000_S200000_d0 : S16x200000.ReducesTo [0] S200000
  bcast_S200000_S1x200000_1 : S200000.BroadcastsInDim S1x200000 (![1] : Fin 1 → Fin S1x200000.rank)
  shapeCasts_S1x13041664_S13041664 : S1x13041664.ShapeCasts S13041664
  shapeCasts_S1_S_ : S1.ShapeCasts S_
  shapeCasts_S200000_S200000x1 : S200000.ShapeCasts S200000x1
  scatter_S200000_S13000000x1_S13000000_n_0_0_1_wf : ScatterDims.WF S200000 S13000000x1 S13000000 [] [0] [0] 1
  gather_S200000_S13000000x1_S13000000_n_0_n_n_0_1_1_wf : GatherDims.WF S200000 S13000000x1 S13000000 [] [0] [] [0] [] 1 ![1]
  gather_S16x200000_S13000000x1_S16x13000000_0_1_n_n_1_1_161_wf : GatherDims.WF S16x200000 S13000000x1 S16x13000000 [0] [1] [] [1] [] 1 ![16, 1]
  scatter_S16x200000_S13041664x1_S16x13041664_0_1_1_1_wf : ScatterDims.WF S16x200000 S13041664x1 S16x13041664 [0] [1] [1] 1
  gather_S1x200000_S13000000x1_S1x13000000_0_1_n_n_1_1_11_wf : GatherDims.WF S1x200000 S13000000x1 S1x13000000 [0] [1] [] [1] [] 1 ![1, 1]
  scatter_S200000_S13041664x1_S13041664_n_0_0_1_wf : ScatterDims.WF S200000 S13041664x1 S13041664 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x65536.size a ≤ S16x13041664.size a
  hwx0_0 : ∀ i : grid0.Coords, EltTy.bits .f32 = 32 ∨ (Rect.block (s := S16x13041664) S16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x13041664.size a
  hwx0_1 : ∀ i : grid0.Coords, EltTy.bits .f32 = 32 ∨ (Rect.block (s := S1x13041664) S1x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x65536.size a ≤ S16x13041664.size a
  hwx0_2 : ∀ i : grid0.Coords, EltTy.bits .f32 = 32 ∨ (Rect.block (s := S16x13041664) S16x65536.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x65536.size a ≤ S1x13041664.size a
  hwx1_0 : ∀ i : grid1.Coords, EltTy.bits .f32 = 32 ∨ (Rect.block (s := S1x13041664) S1x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x65536.size a ≤ S1x13041664.size a
  hwx1_1 : ∀ i : grid1.Coords, EltTy.bits .f32 = 32 ∨ (Rect.block (s := S1x13041664) S1x65536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x65536.size a ≤ S1x13041664.size a
  hwx1_2 : ∀ i : grid1.Coords, EltTy.bits .f32 = 32 ∨ (Rect.block (s := S1x13041664) S1x65536.size (cc1_transform_2 i) (hinb1_2 i)).WholeWords (EltTy.packing .f32)

variable [Facts₀]

def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf
def gather_S16x200000_S13000000x1_S16x13000000_0_1_n_n_1_1_161 : GatherDims S16x200000 S13000000x1 S16x13000000 where
  offsetDims := [0]
  collapsedSliceDims := [1]
  operandBatchingDims := []
  startIndicesBatchingDims := []
  startIndexMap := [1]
  indexVectorDim := 1
  sliceSizes := ![16, 1]
  wf := gather_S16x200000_S13000000x1_S16x13000000_0_1_n_n_1_1_161_wf
def scatter_S16x200000_S13041664x1_S16x13041664_0_1_1_1 : ScatterDims S16x200000 S13041664x1 S16x13041664 where
  updateWindowDims := [0]
  insertedWindowDims := [1]
  scatterDimsToOperandDims := [1]
  indexVectorDim := 1
  wf := scatter_S16x200000_S13041664x1_S16x13041664_0_1_1_1_wf
def gather_S1x200000_S13000000x1_S1x13000000_0_1_n_n_1_1_11 : GatherDims S1x200000 S13000000x1 S1x13000000 where
  offsetDims := [0]
  collapsedSliceDims := [1]
  operandBatchingDims := []
  startIndicesBatchingDims := []
  startIndexMap := [1]
  indexVectorDim := 1
  sliceSizes := ![1, 1]
  wf := gather_S1x200000_S13000000x1_S1x13000000_0_1_n_n_1_1_11_wf
def scatter_S200000_S13041664x1_S13041664_n_0_0_1 : ScatterDims S200000 S13041664x1 S13041664 where
  updateWindowDims := []
  insertedWindowDims := [0]
  scatterDimsToOperandDims := [0]
  indexVectorDim := 1
  wf := scatter_S200000_S13041664x1_S13041664_n_0_0_1_wf

abbrev win0_0 : Pipeline.Window sig grid0 :=
  Pipeline.Window.ofSpec (Memref.whole main_v45) S16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S16x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S1x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x65536.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x1 : Shape := ⟨2, ![200000, 1]⟩
abbrev S2x12800000 : Shape := ⟨2, ![2, 12800000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S200000 : Shape := ⟨1, ![200000]⟩
abbrev S1x12800000 : Shape := ⟨2, ![1, 12800000]⟩
abbrev S12800000 : Shape := ⟨1, ![12800000]⟩
abbrev S13000000 : Shape := ⟨1, ![13000000]⟩
abbrev S200000x16 : Shape := ⟨2, ![200000, 16]⟩
abbrev S_ : Shape := ⟨0, ![]⟩
abbrev S13000000x1 : Shape := ⟨2, ![13000000, 1]⟩
abbrev S13000000x16 : Shape := ⟨2, ![13000000, 16]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S200000x1, .f32⟩
  | .hbm, ⟨1, _⟩ => ⟨S2x12800000, .i32⟩
  | .hbm, ⟨2, _⟩ => ⟨S1x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S200000, .i32⟩
  | .hbm, ⟨7, _⟩ => ⟨S1x12800000, .i32⟩
  | .hbm, ⟨8, _⟩ => ⟨S12800000, .i32⟩
  | .hbm, ⟨9, _⟩ => ⟨S13000000, .i32⟩
  | .hbm, ⟨10, _⟩ => ⟨S1x12800000, .i32⟩
  | .hbm, ⟨11, _⟩ => ⟨S12800000, .i32⟩
  | .hbm, ⟨12, _⟩ => ⟨S13000000, .i32⟩
  | .hbm, ⟨13, _⟩ => ⟨S200000x16, .f32⟩
  | .hbm, ⟨14, _⟩ => ⟨S_, .f32⟩
  | .hbm, ⟨15, _⟩ => ⟨S13000000, .f32⟩
  | .hbm, ⟨16, _⟩ => ⟨S_, .f32⟩
  | .hbm, ⟨17, _⟩ => ⟨S200000, .f32⟩
  | .hbm, ⟨18, _⟩ => ⟨S13000000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S13000000, .i32⟩
  | .hbm, ⟨30, _⟩ => ⟨S13000000, .i1⟩
  | .hbm, ⟨31, _⟩ => ⟨S_, .i32⟩
  | .hbm, ⟨32, _⟩ => ⟨S13000000, .i32⟩
  | .hbm, ⟨33, _⟩ => ⟨S13000000, .i32⟩
  | .hbm, ⟨34, _⟩ => ⟨S13000000, .i32⟩
  | .hbm, ⟨35, _⟩ => ⟨S13000000x1, .i32⟩
  | .hbm, ⟨36, _⟩ => ⟨S13000000, .f32⟩
  | .hbm, ⟨37, _⟩ => ⟨S_, .i32⟩
  | .hbm, ⟨38, _⟩ => ⟨S13000000, .i32⟩
  | .hbm, ⟨39, _⟩ => ⟨S13000000, .i1⟩
  | .hbm, ⟨40, _⟩ => ⟨S_, .i32⟩
  | .hbm, ⟨41, _⟩ => ⟨S13000000, .i32⟩
  | .hbm, ⟨42, _⟩ => ⟨S13000000, .i32⟩
  | .hbm, ⟨43, _⟩ => ⟨S13000000, .i32⟩
  | .hbm, ⟨44, _⟩ => ⟨S13000000x1, .i32⟩
  | .hbm, ⟨45, _⟩ => ⟨S13000000, .f32⟩
  | .hbm, ⟨46, _⟩ => ⟨S13000000, .f32⟩
  | .hbm, ⟨47, _⟩ => ⟨S_, .i32⟩
  | .hbm, ⟨48, _⟩ => ⟨S13000000, .i32⟩
  | .hbm, ⟨49, _⟩ => ⟨S13000000, .i1⟩
  | .hbm, ⟨50, _⟩ => ⟨S_, .i32⟩
  | .hbm, ⟨51, _⟩ => ⟨S13000000, .i32⟩
  | .hbm, ⟨52, _⟩ => ⟨S13000000, .i32⟩
  | .hbm, ⟨53, _⟩ => ⟨S13000000, .i32⟩
  | .hbm, ⟨54, _⟩ => ⟨S13000000x1, .i32⟩
  | .hbm, ⟨55, _⟩ => ⟨S13000000x16, .f32⟩
  | .hbm, ⟨56, _⟩ => ⟨S13000000x1, .f32⟩
  | .hbm, ⟨57, _⟩ => ⟨S13000000x16, .f32⟩
  | .hbm, ⟨58, _⟩ => ⟨S13000000x16, .f32⟩
  | .hbm, ⟨59, _⟩ => ⟨S_, .f32⟩
  | .hbm, ⟨60, _⟩ => ⟨S200000x16, .f32⟩
  | .hbm, ⟨61, _⟩ => ⟨S13000000x1, .i32⟩
  | .hbm, ⟨62, _⟩ => ⟨S200000x16, .f32⟩
  | .hbm, ⟨63, _⟩ => ⟨S1x16, .f32⟩
  | .hbm, ⟨64, _⟩ => ⟨S200000x16, .f32⟩
  | .hbm, ⟨65, _⟩ => ⟨S200000x16, .f32⟩
  | .hbm, ⟨66, _⟩ => ⟨S_, .f32⟩
  | .hbm, ⟨67, _⟩ => ⟨S200000x16, .f32⟩
  | .hbm, ⟨68, _⟩ => ⟨S200000x16, .f32⟩
  | .hbm, ⟨69, _⟩ => ⟨S200000x1, .f32⟩
  | .hbm, ⟨70, _⟩ => ⟨S_, .f32⟩
  | .hbm, ⟨71, _⟩ => ⟨S13000000, .f32⟩
  | .hbm, ⟨72, _⟩ => ⟨S_, .f32⟩
  | .hbm, ⟨73, _⟩ => ⟨S200000, .f32⟩
  | .hbm, ⟨74, _⟩ => ⟨S13000000x1, .i32⟩
  | .hbm, ⟨75, _⟩ => ⟨S200000, .f32⟩
  | .hbm, ⟨76, _⟩ => ⟨S_, .f32⟩
  | .hbm, ⟨77, _⟩ => ⟨S200000, .f32⟩
  | .hbm, ⟨78, _⟩ => ⟨S200000, .i1⟩
  | .hbm, ⟨79, _⟩ => ⟨S200000, .f32⟩
  | .hbm, ⟨80, _⟩ => ⟨S_, .f32⟩
  | .hbm, ⟨81, _⟩ => ⟨S_, .f32⟩
  | .hbm, ⟨82, _⟩ => ⟨S200000, .f32⟩
  | .hbm, ⟨83, _⟩ => ⟨S200000, .f32⟩
  | .hbm, ⟨84, _⟩ => ⟨S_, .i32⟩
  | .hbm, ⟨85, _⟩ => ⟨S13000000, .i32⟩
  | .hbm, ⟨86, _⟩ => ⟨S13000000, .i1⟩
  | .hbm, ⟨87, _⟩ => ⟨S_, .i32⟩
  | .hbm, ⟨88, _⟩ => ⟨S13000000, .i32⟩
  | .hbm, ⟨89, _⟩ => ⟨S13000000, .i32⟩
  | .hbm, ⟨90, _⟩ => ⟨S13000000, .i32⟩
  | .hbm, ⟨91, _⟩ => ⟨S13000000x1, .i32⟩
  | .hbm, ⟨92, _⟩ => ⟨S13000000, .f32⟩
  | .hbm, ⟨93, _⟩ => ⟨S_, .i32⟩
  | .hbm, ⟨94, _⟩ => ⟨S13000000, .i32⟩
  | .hbm, ⟨95, _⟩ => ⟨S13000000, .i1⟩
  | .hbm, ⟨96, _⟩ => ⟨S_, .i32⟩
  | .hbm, ⟨97, _⟩ => ⟨S13000000, .i32⟩
  | .hbm, ⟨98, _⟩ => ⟨S13000000, .i32⟩
  | .hbm, ⟨99, _⟩ => ⟨S13000000, .i32⟩
  | .hbm, ⟨100, _⟩ => ⟨S13000000x1, .i32⟩
  | .hbm, ⟨101, _⟩ => ⟨S13000000, .f32⟩
  | .hbm, ⟨102, _⟩ => ⟨S13000000, .f32⟩
  | .hbm, ⟨103, _⟩ => ⟨S_, .i32⟩
  | .hbm, ⟨104, _⟩ => ⟨S13000000, .i32⟩
  | .hbm, ⟨105, _⟩ => ⟨S13000000, .i1⟩
  | .hbm, ⟨106, _⟩ => ⟨S_, .i32⟩
  | .hbm, ⟨107, _⟩ => ⟨S13000000, .i32⟩
  | .hbm, ⟨108, _⟩ => ⟨S13000000, .i32⟩
  | .hbm, ⟨109, _⟩ => ⟨S13000000, .i32⟩
  | .hbm, ⟨110, _⟩ => ⟨S13000000x1, .i32⟩
  | .hbm, ⟨111, _⟩ => ⟨S13000000x1, .f32⟩
  | .hbm, ⟨112, _⟩ => ⟨S13000000x1, .f32⟩
  | .hbm, ⟨113, _⟩ => ⟨S13000000x1, .f32⟩
  | .hbm, ⟨114, _⟩ => ⟨S_, .f32⟩
  | .hbm, ⟨115, _⟩ => ⟨S200000x1, .f32⟩
  | .hbm, ⟨116, _⟩ => ⟨S13000000x1, .i32⟩
  | .hbm, ⟨117, _⟩ => ⟨S200000x1, .f32⟩
  | .hbm, ⟨118, _⟩ => ⟨S1x1, .f32⟩
  | .hbm, ⟨119, _⟩ => ⟨S200000x1, .f32⟩
  | .hbm, ⟨120, _⟩ => ⟨S200000x1, .f32⟩
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  concatenates_S12800000_S200000_S13000000_d0 : Shape.Concatenates [S12800000, S200000] S13000000 0
  slices_S2x12800000_S1x12800000_1_0 : S2x12800000.Slices ![1, 0] S1x12800000
  bcast_S_S13000000 : S_.BroadcastsInDim S13000000 (![] : Fin 0 → Fin S13000000.rank)
  bcast_S_S200000 : S_.BroadcastsInDim S200000 (![] : Fin 0 → Fin S200000.rank)
  bcast_S13000000_S13000000x1_0 : S13000000.BroadcastsInDim S13000000x1 (![0] : Fin 1 → Fin S13000000x1.rank)
  bcast_S13000000x1_S13000000x16_0_1 : S13000000x1.BroadcastsInDim S13000000x16 (![0, 1] : Fin 2 → Fin S13000000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x1_S1x16_S200000x16_1_0_0_1_n_n_wf : DotDims.WF S200000x1 S1x16 S200000x16 [1] [0] [0] [1] [] []
  scatter_S200000_S13000000x1_S13000000_n_0_0_1_wf : ScatterDims.WF S200000 S13000000x1 S13000000 [] [0] [0] 1
  gather_S200000_S13000000x1_S13000000_n_0_n_n_0_1_1_wf : GatherDims.WF S200000 S13000000x1 S13000000 [] [0] [] [0] [] 1 ![1]
  gather_S200000x16_S13000000x1_S13000000x16_1_0_n_n_0_1_116_wf : GatherDims.WF S200000x16 S13000000x1 S13000000x16 [1] [0] [] [0] [] 1 ![1, 16]
  scatter_S200000x16_S13000000x1_S13000000x16_1_0_0_1_wf : ScatterDims.WF S200000x16 S13000000x1 S13000000x16 [1] [0] [0] 1
  dot_S200000x16_S16x1_S200000x1_1_0_0_1_n_n_wf : DotDims.WF S200000x16 S16x1 S200000x1 [1] [0] [0] [1] [] []
  gather_S200000x1_S13000000x1_S13000000x1_1_0_n_n_0_1_11_wf : GatherDims.WF S200000x1 S13000000x1 S13000000x1 [1] [0] [] [0] [] 1 ![1, 1]
  scatter_S200000x1_S13000000x1_S13000000x1_1_0_0_1_wf : ScatterDims.WF S200000x1 S13000000x1 S13000000x1 [1] [0] [0] 1

variable [Facts₀]

def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf
def gather_S200000x16_S13000000x1_S13000000x16_1_0_n_n_0_1_116 : GatherDims S200000x16 S13000000x1 S13000000x16 where
  offsetDims := [1]
  collapsedSliceDims := [0]
  operandBatchingDims := []
  startIndicesBatchingDims := []
  startIndexMap := [0]
  indexVectorDim := 1
  sliceSizes := ![1, 16]
  wf := gather_S200000x16_S13000000x1_S13000000x16_1_0_n_n_0_1_116_wf
def scatter_S200000x16_S13000000x1_S13000000x16_1_0_0_1 : ScatterDims S200000x16 S13000000x1 S13000000x16 where
  updateWindowDims := [1]
  insertedWindowDims := [0]
  scatterDimsToOperandDims := [0]
  indexVectorDim := 1
  wf := scatter_S200000x16_S13000000x1_S13000000x16_1_0_0_1_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf
def gather_S200000x1_S13000000x1_S13000000x1_1_0_n_n_0_1_11 : GatherDims S200000x1 S13000000x1 S13000000x1 where
  offsetDims := [1]
  collapsedSliceDims := [0]
  operandBatchingDims := []
  startIndicesBatchingDims := []
  startIndexMap := [0]
  indexVectorDim := 1
  sliceSizes := ![1, 1]
  wf := gather_S200000x1_S13000000x1_S13000000x1_1_0_n_n_0_1_11_wf
def scatter_S200000x1_S13000000x1_S13000000x1_1_0_0_1 : ScatterDims S200000x1 S13000000x1 S13000000x1 where
  updateWindowDims := [1]
  insertedWindowDims := [0]
  scatterDimsToOperandDims := [0]
  indexVectorDim := 1
  wf := scatter_S200000x1_S13000000x1_S13000000x1_1_0_0_1_wf

class Facts : Prop extends Facts₀ where

variable [Facts]
-- ==== Proof.KernelStages.lean ====
/-
  The idealized kernel program's host stages as functions, one per value that matters downstream.

  Three values are read off the edge list alone — the edge weights, the column of source start indices and the vector
  of destination words — and everything after them is a function of those three and of the float arguments. The
  stages up to those three are stated over the edge list `ei`; the stages after them over the three as PARAMETERS
  (`nrm`, `srcC`, `dst`), so that the comparison with the reference never opens them.

  The program is feature-major: a table of node features is [16, 200000] (or [1, 200000]), a table of messages
  [16, 13041664] — the 13000000 edges padded with zeros to 199 blocks of 65536. The two kernel launches each
  multiply a message table by the padded row of edge weights, block by block (`scaled16`, `scaled1`).
-/
import proofs.«139156_j17188459118980_1_alg».proof.Proof.Gen.KernelIdeal
import Idealize.ShloMosaic.PureOps.Ideal

noncomputable section

namespace Cert.KernelIdeal.Stage

open Cert.KernelIdeal Cert.KernelIdeal.Facts₀ Idealize.ShloMosaic

variable {F : FTy → Type} [FloatOps F]

/-! ## Read off the edge list -/

/-- The source words: row 0 of the edge list, then one self-loop per node. -/
def srcW (ei : (⟨S2x12800000, .i32⟩ : BufTy).Contents (Elt F)) : (⟨S13000000, .i32⟩ : BufTy).Contents (Elt F) :=
  concatenate S13000000 0 [⟨S12800000, shapeCast _ (extractStridedSlice S1x12800000 ![0, 0] ei slices_S2x12800000_S1x12800000_0_0) shapeCasts_S1x12800000_S12800000⟩, ⟨S200000, iotaInDim S200000 32 0⟩] concatenates_S12800000_S200000_S13000000_d0

/-- The destination words: row 1 of the edge list, then one self-loop per node. -/
def dstW (ei : (⟨S2x12800000, .i32⟩ : BufTy).Contents (Elt F)) : (⟨S13000000, .i32⟩ : BufTy).Contents (Elt F) :=
  concatenate S13000000 0 [⟨S12800000, shapeCast _ (extractStridedSlice S1x12800000 ![1, 0] ei slices_S2x12800000_S1x12800000_1_0) shapeCasts_S1x12800000_S12800000⟩, ⟨S200000, iotaInDim S200000 32 0⟩] concatenates_S12800000_S200000_S13000000_d0

/-- A vector of words as a column of start indices, a negative word moved up by the table's height first. -/
def startCol (w : (⟨S13000000, .i32⟩ : BufTy).Contents (Elt F)) : (⟨S13000000x1, .i32⟩ : BufTy).Contents (Elt F) :=
  broadcastInDim S13000000x1 ![0] bcast_S13000000_S13000000x1_0
    (select (cmpi .slt w (broadcastInDim S13000000 ![] bcast_S_S13000000 (constantI S_ 32 0#32)))
      (addi w (broadcastInDim S13000000 ![] bcast_S_S13000000 (constantI S_ 32 200000#32))) w)

/-- Each node's degree: the number of edges whose destination word names it. -/
def deg (ei : (⟨S2x12800000, .i32⟩ : BufTy).Contents (Elt F)) : (⟨S200000, .f32⟩ : BufTy).Contents (Elt F) :=
  Host.scatterAdd scatter_S200000_S13000000x1_S13000000_n_0_0_1
    (broadcastInDim S200000 ![] bcast_S_S200000 (constant S_ .f32 0x00000000#32))
    (broadcastInDim S13000000x1 ![0] bcast_S13000000_S13000000x1_0 (dstW (F := F) ei))
    (broadcastInDim S13000000 ![] bcast_S_S13000000 (constant S_ .f32 0x3F800000#32))

/-- The inverse square root of the degree where it is positive, zero elsewhere. -/
def dinv (ei : (⟨S2x12800000, .i32⟩ : BufTy).Contents (Elt F)) : (⟨S200000, .f32⟩ : BufTy).Contents (Elt F) :=
  select (cmpf (F := F) .ogt (deg (F := F) ei) (broadcastInDim S200000 ![] bcast_S_S200000 (constant S_ .f32 0x00000000#32)))
    (Host.rsqrt (deg (F := F) ei))
    (broadcastInDim S200000 ![] bcast_S_S200000 (id (constant S_ .f32 0x00000000#32)))

/-- The edge weights: the product of the two end nodes' inverse square roots. -/
def nrmOf (ei : (⟨S2x12800000, .i32⟩ : BufTy).Contents (Elt F)) : (⟨S13000000, .f32⟩ : BufTy).Contents (Elt F) :=
  mulf (Host.gather gather_S200000_S13000000x1_S13000000_n_0_n_n_0_1_1 (dinv (F := F) ei) (startCol (F := F) (srcW (F := F) ei)))
    (Host.gather gather_S200000_S13000000x1_S13000000_n_0_n_n_0_1_1 (dinv (F := F) ei) (startCol (F := F) (dstW (F := F) ei)))

/-! ## After the three shared values -/

variable (x : (⟨S200000x1, .f32⟩ : BufTy).Contents (Elt F)) (W1 : (⟨S1x16, .f32⟩ : BufTy).Contents (Elt F))
  (b1 : (⟨S16, .f32⟩ : BufTy).Contents (Elt F)) (W2 : (⟨S16x1, .f32⟩ : BufTy).Contents (Elt F)) (b2 : (⟨S1, .f32⟩ : BufTy).Contents (Elt F))
  (nrm : (⟨S13000000, .f32⟩ : BufTy).Contents (Elt F)) (srcC : (⟨S13000000x1, .i32⟩ : BufTy).Contents (Elt F))
  (dst : (⟨S13000000, .i32⟩ : BufTy).Contents (Elt F))

/-- The edge weights as one row, padded with zeros to the blocks' length. -/
def nrmP : (⟨S1x13041664, .f32⟩ : BufTy).Contents (Elt F) :=
  pad S1x13041664 ![0, 0] ![0, 41664] ![0, 0] (shapeCast _ nrm shapeCasts_S13000000_S1x13000000) (sitofp (F := F) .f32 (constantI S_ 32 0#32)) pads_S1x13000000_S1x13041664_000_0416640 h_S_

/-- The destination words padded with the word zero to the blocks' length, as a column of start indices. -/
def dstPC : (⟨S13041664x1, .i32⟩ : BufTy).Contents (Elt F) :=
  broadcastInDim S13041664x1 ![0] bcast_S13041664_S13041664x1_0
    (pad S13041664 ![0] ![41664] ![0] dst (id (constantI S_ 32 0#32)) pads_S13000000_S13041664_0416640 h_S_)

/-- Round one's node features, feature-major: W1[f]·x[v]. -/
def h1T : (⟨S16x200000, .f32⟩ : BufTy).Contents (Elt F) :=
  mulf (broadcastInDim S16x200000 ![0, 1] bcast_S16x1_S16x200000_0_1 (transpose S16x1 [1, 0] W1 transposes_S1x16_S16x1_1_0))
    (broadcastInDim S16x200000 ![0, 1] bcast_S1x200000_S16x200000_0_1 (shapeCast _ x shapeCasts_S200000x1_S1x200000))

/-- Round one's gathered source features, padded with zeros to the blocks' length. -/
def g1P : (⟨S16x13041664, .f32⟩ : BufTy).Contents (Elt F) :=
  pad S16x13041664 ![0, 0] ![0, 41664] ![0, 0] (Host.gather gather_S16x200000_S13000000x1_S16x13000000_0_1_n_n_1_1_161 (h1T x W1) srcC)
    (sitofp (F := F) .f32 (constantI S_ 32 0#32)) pads_S16x13000000_S16x13041664_000_0416640 h_S_

/-- What the first launch leaves: a message table times the row of weights broadcast down its sixteen rows. -/
def scaled16 (a : (⟨S16x13041664, .f32⟩ : BufTy).Contents (Elt F)) (n : (⟨S1x13041664, .f32⟩ : BufTy).Contents (Elt F)) :
    (⟨S16x13041664, .f32⟩ : BufTy).Contents (Elt F) :=
  fun i => FloatOps.mulf (a i) (n (fun d => match d with | ⟨0, _⟩ => (⟨0, Nat.one_pos⟩ : Fin 1) | ⟨1, _⟩ => ⟨(i 1).val, (i 1).isLt⟩))

/-- What the second launch leaves: a one-row message table times the row of weights. -/
def scaled1 (a : (⟨S1x13041664, .f32⟩ : BufTy).Contents (Elt F)) (n : (⟨S1x13041664, .f32⟩ : BufTy).Contents (Elt F)) :
    (⟨S1x13041664, .f32⟩ : BufTy).Contents (Elt F) :=
  fun i => FloatOps.mulf (a i) (n i)

/-- Round one's messages. -/
def msg1 : (⟨S16x13041664, .f32⟩ : BufTy).Contents (Elt F) := scaled16 (g1P x W1 srcC) (nrmP nrm)

/-- Round one's aggregate, feature-major. -/
def agg1 : (⟨S16x200000, .f32⟩ : BufTy).Contents (Elt F) :=
  Host.scatterAdd scatter_S16x200000_S13041664x1_S16x13041664_0_1_1_1
    (broadcastInDim S16x200000 ![1] bcast_S200000_S16x200000_1 (broadcastInDim S200000 ![] bcast_S_S200000 (constant S_ .f32 0x00000000#32)))
    (dstPC (F := F) dst) (msg1 x W1 nrm srcC)

/-- Round one's output: the aggregate plus the bias, its negative part cut off. -/
def act1 : (⟨S16x200000, .f32⟩ : BufTy).Contents (Elt F) :=
  maximumf (addf (agg1 x W1 nrm srcC dst) (broadcastInDim S16x200000 ![0, 1] bcast_S16x1_S16x200000_0_1 (shapeCast _ b1 shapeCasts_S16_S16x1)))
    (broadcastInDim S16x200000 ![] bcast_S_S16x200000 (constant S_ .f32 0x00000000#32))

/-- Round two's node feature as one row: the sixteen outputs weighted by W2 and summed. -/
def h2T : (⟨S1x200000, .f32⟩ : BufTy).Contents (Elt F) :=
  broadcastInDim S1x200000 ![1] bcast_S200000_S1x200000_1
    (Host.reduceAdd (mulf (broadcastInDim S16x200000 ![0, 1] bcast_S16x1_S16x200000_0_1 W2) (act1 x W1 b1 nrm srcC dst))
      (constant S_ .f32 0x00000000#32) reducesTo_S16x200000_S200000_d0 h_S_)

/-- Round two's gathered source features, padded with zeros. -/
def g2P : (⟨S1x13041664, .f32⟩ : BufTy).Contents (Elt F) :=
  pad S1x13041664 ![0, 0] ![0, 41664] ![0, 0] (Host.gather gather_S1x200000_S13000000x1_S1x13000000_0_1_n_n_1_1_11 (h2T x W1 b1 W2 nrm srcC dst) srcC)
    (sitofp (F := F) .f32 (constantI S_ 32 0#32)) pads_S1x13000000_S1x13041664_000_0416640 h_S_

/-- Round two's messages. -/
def msg2 : (⟨S1x13041664, .f32⟩ : BufTy).Contents (Elt F) := scaled1 (g2P x W1 b1 W2 nrm srcC dst) (nrmP nrm)

/-- Round two's aggregate. -/
def agg2 : (⟨S200000, .f32⟩ : BufTy).Contents (Elt F) :=
  Host.scatterAdd scatter_S200000_S13041664x1_S13041664_n_0_0_1
    (broadcastInDim S200000 ![] bcast_S_S200000 (constant S_ .f32 0x00000000#32))
    (dstPC (F := F) dst) (shapeCast _ (msg2 x W1 b1 W2 nrm srcC dst) shapeCasts_S1x13041664_S13041664)

/-- The result: round two's aggregate plus the second bias, as a column. -/
def result : (⟨S200000x1, .f32⟩ : BufTy).Contents (Elt F) :=
  shapeCast _ (addf (agg2 x W1 b1 W2 nrm srcC dst) (broadcastInDim S200000 ![] bcast_S_S200000 (shapeCast _ b2 shapeCasts_S1_S_))) shapeCasts_S200000_S200000x1

end Cert.KernelIdeal.Stage

end
-- ==== Proof.KernelRegions.lean ====
import proofs.«139156_j17188459118980_1_alg».proof.Proof.Gen.KernelIdeal.Frame
import Idealize.ShloMosaic.Lib.Pipeline.Value
import Idealize.ShloMosaic.Lib.ValueLayout
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- A 16-row array scaled column by column by a one-row array: entry (r, k) is a(r, k) · n(0, k). -/
def scale16 (a : S16x13041664.Idx → Elt F .f32) (n : S1x13041664.Idx → Elt F .f32) : S16x13041664.Idx → Elt F .f32 :=
  fun i => FloatOps.mulf (a i) (n (fun d => match d with | ⟨0, _⟩ => (⟨0, Nat.one_pos⟩ : Fin 1) | ⟨1, _⟩ => ⟨(i 1).val, (i 1).isLt⟩))

/-- A one-row array scaled entry by entry by another. -/
def scale1 (a : S1x13041664.Idx → Elt F .f32) (n : S1x13041664.Idx → Elt F .f32) : S1x13041664.Idx → Elt F .f32 :=
  fun i => FloatOps.mulf (a i) (n i)

theorem hz : (![0, 0] : Fin 2 → Nat) = fun _ => 0 := funext fun a => by
  match a with
  | ⟨0, _⟩ => rfl
  | ⟨1, _⟩ => rfl

/-! ## Region 0 -/

/-- The body's product, entry by entry: the 16-row block times the one-row block's entry in the same column. -/
theorem pay0_apply (n : Vec F S1x65536 .f32) (a : Vec F S16x65536 .f32) (j : S16x65536.Idx) :
    k0_pay1 n a j = FloatOps.mulf (a j) (n (ix2 (0 : Fin 1) (j 1))) := by
  unfold k0_pay1
  rw [shapeCast_self, shapeCast_self, shapeCast_self]
  refine congrArg (FloatOps.mulf (a j)) (broadcastTo_apply n broadcasts_S1x65536_S16x65536 j (ix2 (0 : Fin 1) (j 1)) fun ax => ?_)
  match ax with
  | ⟨0, _⟩ => rfl
  | ⟨1, _⟩ => rfl

/-- The index maps over the grid: every window's block index at point t is (0, t). -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point t writes back is block t of the scaled array. -/
theorem flushed0_eq (c : Dev nD) (t : Fin cfg0.N) :
    (dat0 V c).flushed 2 t = ((cfg0.win 2).blk t).view.read (Elt F) (scale16 (V c main_v45) (V c main_v31)) := by
  show (cfg0.win 2).cut (grid0.coords t) ((dat0 V c).after 2 t) = _
  rw [after0_2]
  unfold out0_2
  rw [View.canon_unit_zero hz]
  simp only [View.ld_unit_zero (S := S16x65536) hz, View.ld_unit_zero (S := S1x65536) hz]
  obtain ⟨e0, e1, e2, e3, e4, e5⟩ := idx_facts0 t
  funext j
  refine (pay0_apply (iblk0 V c 1 t) (iblk0 V c 0 t) j).trans ?_
  show FloatOps.mulf (V c main_v45 (((cfg0.win 0).blk t).view.emb j)) (V c main_v31 (((cfg0.win 1).blk t).view.emb (ix2 (0 : Fin 1) (j 1))))
    = scale16 (V c main_v45) (V c main_v31) (((cfg0.win 2).blk t).view.emb j)
  unfold scale16
  have h0 : ((cfg0.win 0).blk t).view.emb j = ((cfg0.win 2).blk t).view.emb j := by
    funext a; apply Fin.ext
    match a with
    | ⟨0, _⟩ => show win0_0.index t (0 : Fin 2) * 16 + 1 * (j 0).val = win0_2.index t (0 : Fin 2) * 16 + 1 * (j 0).val; omega
    | ⟨1, _⟩ => show win0_0.index t (1 : Fin 2) * 65536 + 1 * (j 1).val = win0_2.index t (1 : Fin 2) * 65536 + 1 * (j 1).val; omega
  have h1 : ((cfg0.win 1).blk t).view.emb (ix2 (0 : Fin 1) (j 1))
      = ix2 (0 : Fin 1) (⟨((((cfg0.win 2).blk t).view.emb j) 1).val, ((((cfg0.win 2).blk t).view.emb j) 1).isLt⟩ : Fin 13041664) := by
    funext a; apply Fin.ext
    match a with
    | ⟨0, _⟩ => show win0_1.index t (0 : Fin 2) * 1 + 1 * 0 = 0; omega
    | ⟨1, _⟩ => show win0_1.index t (1 : Fin 2) * 65536 + 1 * (j 1).val = win0_2.index t (1 : Fin 2) * 65536 + 1 * (j 1).val; omega
  rw [h0, h1]
  refine congrArg _ (congrArg _ (funext fun d => ?_))
  match d with
  | ⟨0, _⟩ => rfl
  | ⟨1, _⟩ => rfl

/-- An index of the array lies in point t's block iff each coordinate lies in the block's range on its axis. -/
theorem mem_blk0 (t : Fin cfg0.N) (i : S16x13041664.Idx) :
    i ∈ ((cfg0.win 2).blk t).view.set ↔ ∀ a : Fin 2, win0_2.index t a * S16x65536.size a ≤ (i a).val ∧ (i a).val < win0_2.index t a * S16x65536.size a + S16x65536.size a := by
  show i ∈ ((View.whole main_v46).slice (win0_2.rect t)).set ↔ _
  rw [View.set_slice_whole, Rect.mem_set_unit]
  exact Iff.rfl

/-- The 199 column blocks of 65536 tile the 13041664 columns: column k lies in the block of point k / 65536, all 16 rows. -/
theorem cover0 (i : S16x13041664.Idx) :
    ∃ t : Fin cfg0.N, (cfg0.win 2).flush t = true ∧ i ∈ ((cfg0.win 2).blk t).view.set := by
  have hi0 : (i 0).val < 16 := (i 0).isLt
  have hi1 : (i 1).val < 13041664 := (i 1).isLt
  refine ⟨(⟨(i 1).val / 65536, by show (i 1).val / 65536 < 199; omega⟩ : Fin cfg0.N), flush0_2 _, ?_⟩
  rw [mem_blk0]
  obtain ⟨-, -, -, -, e4, e5⟩ := idx_facts0 (⟨(i 1).val / 65536, by show (i 1).val / 65536 < 199; omega⟩ : Fin cfg0.N)
  intro a
  match a with
  | ⟨0, _⟩ =>
    show win0_2.index _ (0 : Fin 2) * 16 ≤ (i 0).val ∧ (i 0).val < win0_2.index _ (0 : Fin 2) * 16 + 16
    rw [e4]; omega
  | ⟨1, _⟩ =>
    show win0_2.index _ (1 : Fin 2) * 65536 ≤ (i 1).val ∧ (i 1).val < win0_2.index _ (1 : Fin 2) * 65536 + 65536
    rw [e5]; show (i 1).val / 65536 * 65536 ≤ (i 1).val ∧ (i 1).val < (i 1).val / 65536 * 65536 + 65536; omega

/-- The output array after region 0: the scaled array, everywhere. -/
theorem final0 (c : Dev nD) : (dat0 V c).arrAt 2 cfg0.N = scale16 (V c main_v45) (V c main_v31) :=
  (dat0 V c).arrAt_eq_of_cover 2 (scale16 (V c main_v45) (V c main_v31)) (fun t _ => flushed0_eq V c t) cover0

/-- An input window's array is never written. -/
theorem kept0_0 (c : Dev nD) : (dat0 V c).arrAt 0 cfg0.N = V c main_v45 :=
  ((dat0 V c).arrAt_in 0 rfl _).trans (A_eq0 V c 0)
theorem kept0_1 (c : Dev nD) : (dat0 V c).arrAt 1 cfg0.N = V c main_v31 :=
  ((dat0 V c).arrAt_in 1 rfl _).trans (A_eq0 V c 1)

/-! ## Region 1 -/

/-- The body's product, entry by entry: the one-row block times the other one-row block's entry at the same place. -/
theorem pay1_apply (n : Vec F S1x65536 .f32) (a : Vec F S1x65536 .f32) (j : S1x65536.Idx) :
    k1_pay1 n a j = FloatOps.mulf (a j) (n j) := by
  unfold k1_pay1
  rw [shapeCast_self, shapeCast_self]
  rfl

/-- The index maps over the grid: every window's block index at point t is (0, t). -/
theorem idx_facts1 : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- What point t writes back is block t of the scaled row. -/
theorem flushed1_eq (c : Dev nD) (t : Fin cfg1.N) :
    (dat1 V c).flushed 2 t = ((cfg1.win 2).blk t).view.read (Elt F) (scale1 (V c main_v66) (V c main_v31)) := by
  show (cfg1.win 2).cut (grid1.coords t) ((dat1 V c).after 2 t) = _
  rw [after1_2]
  unfold out1_2
  rw [View.canon_unit_zero hz]
  simp only [View.ld_unit_zero (S := S1x65536) hz]
  obtain ⟨e0, e1, e2, e3, e4, e5⟩ := idx_facts1 t
  funext j
  refine (pay1_apply (iblk1 V c 1 t) (iblk1 V c 0 t) j).trans ?_
  show FloatOps.mulf (V c main_v66 (((cfg1.win 0).blk t).view.emb j)) (V c main_v31 (((cfg1.win 1).blk t).view.emb j))
    = scale1 (V c main_v66) (V c main_v31) (((cfg1.win 2).blk t).view.emb j)
  unfold scale1
  have h0 : ((cfg1.win 0).blk t).view.emb j = ((cfg1.win 2).blk t).view.emb j := by
    funext a; apply Fin.ext
    match a with
    | ⟨0, _⟩ => show win1_0.index t (0 : Fin 2) * 1 + 1 * (j 0).val = win1_2.index t (0 : Fin 2) * 1 + 1 * (j 0).val; omega
    | ⟨1, _⟩ => show win1_0.index t (1 : Fin 2) * 65536 + 1 * (j 1).val = win1_2.index t (1 : Fin 2) * 65536 + 1 * (j 1).val; omega
  have h1 : ((cfg1.win 1).blk t).view.emb j = ((cfg1.win 2).blk t).view.emb j := by
    funext a; apply Fin.ext
    match a with
    | ⟨0, _⟩ => show win1_1.index t (0 : Fin 2) * 1 + 1 * (j 0).val = win1_2.index t (0 : Fin 2) * 1 + 1 * (j 0).val; omega
    | ⟨1, _⟩ => show win1_1.index t (1 : Fin 2) * 65536 + 1 * (j 1).val = win1_2.index t (1 : Fin 2) * 65536 + 1 * (j 1).val; omega
  rw [h0, h1]

/-- An index of the row lies in point t's block iff each coordinate lies in the block's range on its axis. -/
theorem mem_blk1 (t : Fin cfg1.N) (i : S1x13041664.Idx) :
    i ∈ ((cfg1.win 2).blk t).view.set ↔ ∀ a : Fin 2, win1_2.index t a * S1x65536.size a ≤ (i a).val ∧ (i a).val < win1_2.index t a * S1x65536.size a + S1x65536.size a := by
  show i ∈ ((View.whole main_v67).slice (win1_2.rect t)).set ↔ _
  rw [View.set_slice_whole, Rect.mem_set_unit]
  exact Iff.rfl

/-- The 199 column blocks of 65536 tile the 13041664 columns: column k lies in the block of point k / 65536, the one row. -/
theorem cover1 (i : S1x13041664.Idx) :
    ∃ t : Fin cfg1.N, (cfg1.win 2).flush t = true ∧ i ∈ ((cfg1.win 2).blk t).view.set := by
  have hi0 : (i 0).val < 1 := (i 0).isLt
  have hi1 : (i 1).val < 13041664 := (i 1).isLt
  refine ⟨(⟨(i 1).val / 65536, by show (i 1).val / 65536 < 199; omega⟩ : Fin cfg1.N), flush1_2 _, ?_⟩
  rw [mem_blk1]
  obtain ⟨-, -, -, -, e4, e5⟩ := idx_facts1 (⟨(i 1).val / 65536, by show (i 1).val / 65536 < 199; omega⟩ : Fin cfg1.N)
  intro a
  match a with
  | ⟨0, _⟩ =>
    show win1_2.index _ (0 : Fin 2) * 1 ≤ (i 0).val ∧ (i 0).val < win1_2.index _ (0 : Fin 2) * 1 + 1
    rw [e4]; omega
  | ⟨1, _⟩ =>
    show win1_2.index _ (1 : Fin 2) * 65536 ≤ (i 1).val ∧ (i 1).val < win1_2.index _ (1 : Fin 2) * 65536 + 65536
    rw [e5]; show (i 1).val / 65536 * 65536 ≤ (i 1).val ∧ (i 1).val < (i 1).val / 65536 * 65536 + 65536; omega

/-- The output row after region 1: the scaled row, everywhere. -/
theorem final1 (c : Dev nD) : (dat1 V c).arrAt 2 cfg1.N = scale1 (V c main_v66) (V c main_v31) :=
  (dat1 V c).arrAt_eq_of_cover 2 (scale1 (V c main_v66) (V c main_v31)) (fun t _ => flushed1_eq V c t) cover1

/-- An input window's array is never written. -/
theorem kept1_0 (c : Dev nD) : (dat1 V c).arrAt 0 cfg1.N = V c main_v66 :=
  ((dat1 V c).arrAt_in 0 rfl _).trans (A_eq1 V c 0)
theorem kept1_1 (c : Dev nD) : (dat1 V c).arrAt 1 cfg1.N = V c main_v31 :=
  ((dat1 V c).arrAt_in 1 rfl _).trans (A_eq1 V c 1)

end Cert.KernelIdeal.Regions

end
-- ==== Proof.KernelTrack.lean ====
/-
  The idealized kernel program's buffers followed through its run: from the launch memory through the host operations
  before the first launch, the first launch (whose output array ends as the block-by-block product, whose input arrays
  and every other buffer are untouched), the host operations between the launches, the second launch, and the host
  operations after it. The result buffer ends at the stage function `Stage.result` of the float arguments and of the
  three values read off the edge list.
-/
import proofs.«139156_j17188459118980_1_alg».proof.Proof.Gen.KernelIdeal.Frame
import proofs.«139156_j17188459118980_1_alg».proof.Proof.KernelStages
import proofs.«139156_j17188459118980_1_alg».proof.Proof.KernelRegions
import Idealize.ShloMosaic.Lib.StableHlo.Run

set_option maxRecDepth 16384

noncomputable section

namespace Cert.KernelIdeal.Track

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Read a buffer's contents after a stretch of host operations back to the contents before it: every operation's result
    at its own buffer is its function of its operands', at any other buffer what was there; also inside the operand
    lists of the two concatenations. -/
macro "track_results" : tactic => `(tactic| (
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  try simp only [TRef.ofBuf, TRef.toBuf, cast_eq]))

/-! ## When the first launch is entered -/

set_option maxHeartbeats 4000000 in
theorem W8_v45 (c : Dev nD) : W8 m ρ c (Proc.devRef .tc main_v45) = Stage.g1P (F := F) (m ((c.tc : Thread nD τ).loc main_arg0)) (m ((c.tc : Thread nD τ).loc main_arg2)) (Stage.startCol (F := F) (Stage.srcW (F := F) (m ((c.tc : Thread nD τ).loc main_arg1)))) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v45) = _
  simp only [hostOps0_7, hostOps0_6, hostOps0_5, hostOps0_4, hostOps0_3, hostOps0_2, hostOps0_1, hostOps0]
  track_results
  rfl

set_option maxHeartbeats 4000000 in
theorem W8_v31 (c : Dev nD) : W8 m ρ c (Proc.devRef .tc main_v31) = Stage.nrmP (F := F) (Stage.nrmOf (F := F) (m ((c.tc : Thread nD τ).loc main_arg1))) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v31) = _
  simp only [hostOps0_7, hostOps0_6, hostOps0_5, hostOps0_4, hostOps0_3, hostOps0_2, hostOps0_1, hostOps0]
  track_results
  rfl

set_option maxHeartbeats 4000000 in
theorem W8_v32 (c : Dev nD) : W8 m ρ c (Proc.devRef .tc main_v32) = pad S13041664 ![0] ![41664] ![0] (Stage.dstW (F := F) (m ((c.tc : Thread nD τ).loc main_arg1))) (id (constantI S_ 32 0#32)) Facts₀.pads_S13000000_S13041664_0416640 Facts₀.h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v32) = _
  simp only [hostOps0_7, hostOps0_6, hostOps0_5, hostOps0_4, hostOps0_3, hostOps0_2, hostOps0_1, hostOps0]
  track_results
  rfl

set_option maxHeartbeats 4000000 in
theorem W8_v3 (c : Dev nD) : W8 m ρ c (Proc.devRef .tc main_v3) = Stage.srcW (F := F) (m ((c.tc : Thread nD τ).loc main_arg1)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v3) = _
  simp only [hostOps0_7, hostOps0_6, hostOps0_5, hostOps0_4, hostOps0_3, hostOps0_2, hostOps0_1, hostOps0]
  track_results
  rfl

set_option maxHeartbeats 4000000 in
theorem W8_arg3 (c : Dev nD) : W8 m ρ c (Proc.devRef .tc main_arg3) = (m ((c.tc : Thread nD τ).loc main_arg3)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_arg3) = _
  simp only [hostOps0_7, hostOps0_6, hostOps0_5, hostOps0_4, hostOps0_3, hostOps0_2, hostOps0_1, hostOps0]
  track_results

set_option maxHeartbeats 4000000 in
theorem W8_arg4 (c : Dev nD) : W8 m ρ c (Proc.devRef .tc main_arg4) = (m ((c.tc : Thread nD τ).loc main_arg4)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_arg4) = _
  simp only [hostOps0_7, hostOps0_6, hostOps0_5, hostOps0_4, hostOps0_3, hostOps0_2, hostOps0_1, hostOps0]
  track_results

set_option maxHeartbeats 4000000 in
theorem W8_arg5 (c : Dev nD) : W8 m ρ c (Proc.devRef .tc main_arg5) = (m ((c.tc : Thread nD τ).loc main_arg5)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_arg5) = _
  simp only [hostOps0_7, hostOps0_6, hostOps0_5, hostOps0_4, hostOps0_3, hostOps0_2, hostOps0_1, hostOps0]
  track_results

/-! ## When the first launch is left -/

theorem W9_v46 (c : Dev nD) : W9 m ρ c (Proc.devRef .tc main_v46)
    = Stage.msg1 (F := F) (m ((c.tc : Thread nD τ).loc main_arg0)) (m ((c.tc : Thread nD τ).loc main_arg2)) (Stage.nrmOf (F := F) (m ((c.tc : Thread nD τ).loc main_arg1))) (Stage.startCol (F := F) (Stage.srcW (F := F) (m ((c.tc : Thread nD τ).loc main_arg1)))) :=
  ((W9_arr m ρ c 2).trans (Cert.KernelIdeal.Regions.final0 (V8 m ρ) c)).trans (by
    show Cert.KernelIdeal.Regions.scale16 (W8 m ρ c (Proc.devRef .tc main_v45)) (W8 m ρ c (Proc.devRef .tc main_v31)) = _
    rw [W8_v45, W8_v31]; rfl)
theorem W9_v31 (c : Dev nD) : W9 m ρ c (Proc.devRef .tc main_v31) = Stage.nrmP (F := F) (Stage.nrmOf (F := F) (m ((c.tc : Thread nD τ).loc main_arg1))) :=
  ((W9_arr m ρ c 1).trans (Cert.KernelIdeal.Regions.kept0_1 (V8 m ρ) c)).trans (W8_v31 m ρ c)
theorem W9_v32 (c : Dev nD) : W9 m ρ c (Proc.devRef .tc main_v32) = W8 m ρ c (Proc.devRef .tc main_v32) := W9_of_ne m ρ c main_v32 (by decide)
theorem W9_v3 (c : Dev nD) : W9 m ρ c (Proc.devRef .tc main_v3) = W8 m ρ c (Proc.devRef .tc main_v3) := W9_of_ne m ρ c main_v3 (by decide)
theorem W9_arg3 (c : Dev nD) : W9 m ρ c (Proc.devRef .tc main_arg3) = W8 m ρ c (Proc.devRef .tc main_arg3) := W9_of_ne m ρ c main_arg3 (by decide)
theorem W9_arg4 (c : Dev nD) : W9 m ρ c (Proc.devRef .tc main_arg4) = W8 m ρ c (Proc.devRef .tc main_arg4) := W9_of_ne m ρ c main_arg4 (by decide)
theorem W9_arg5 (c : Dev nD) : W9 m ρ c (Proc.devRef .tc main_arg5) = W8 m ρ c (Proc.devRef .tc main_arg5) := W9_of_ne m ρ c main_arg5 (by decide)

/-! ## When the second launch is entered -/

set_option maxHeartbeats 4000000 in
theorem W13_v66 (c : Dev nD) : W13 m ρ c (Proc.devRef .tc main_v66)
    = Stage.g2P (F := F) (m ((c.tc : Thread nD τ).loc main_arg0)) (m ((c.tc : Thread nD τ).loc main_arg2)) (m ((c.tc : Thread nD τ).loc main_arg3)) (m ((c.tc : Thread nD τ).loc main_arg4)) (Stage.nrmOf (F := F) (m ((c.tc : Thread nD τ).loc main_arg1))) (Stage.startCol (F := F) (Stage.srcW (F := F) (m ((c.tc : Thread nD τ).loc main_arg1)))) (Stage.dstW (F := F) (m ((c.tc : Thread nD τ).loc main_arg1))) := by
  show StableHlo.after hostOps1_3 (StableHlo.after hostOps1_2 (StableHlo.after hostOps1_1 (StableHlo.after hostOps1 (W9 m ρ c)))) (Proc.devRef .tc main_v66) = _
  simp only [hostOps1_3, hostOps1_2, hostOps1_1, hostOps1]
  track_results
  rw [W9_v46, W9_v32, W9_v3, W9_arg3, W9_arg4, W8_v32, W8_v3, W8_arg3, W8_arg4]
  rfl

set_option maxHeartbeats 4000000 in
theorem W13_v31 (c : Dev nD) : W13 m ρ c (Proc.devRef .tc main_v31) = Stage.nrmP (F := F) (Stage.nrmOf (F := F) (m ((c.tc : Thread nD τ).loc main_arg1))) := by
  show StableHlo.after hostOps1_3 (StableHlo.after hostOps1_2 (StableHlo.after hostOps1_1 (StableHlo.after hostOps1 (W9 m ρ c)))) (Proc.devRef .tc main_v31) = _
  simp only [hostOps1_3, hostOps1_2, hostOps1_1, hostOps1]
  track_results
  exact W9_v31 m ρ c

set_option maxHeartbeats 4000000 in
theorem W13_v32 (c : Dev nD) : W13 m ρ c (Proc.devRef .tc main_v32) = W8 m ρ c (Proc.devRef .tc main_v32) := by
  show StableHlo.after hostOps1_3 (StableHlo.after hostOps1_2 (StableHlo.after hostOps1_1 (StableHlo.after hostOps1 (W9 m ρ c)))) (Proc.devRef .tc main_v32) = _
  simp only [hostOps1_3, hostOps1_2, hostOps1_1, hostOps1]
  track_results
  exact W9_v32 m ρ c

set_option maxHeartbeats 4000000 in
theorem W13_arg5 (c : Dev nD) : W13 m ρ c (Proc.devRef .tc main_arg5) = (m ((c.tc : Thread nD τ).loc main_arg5)) := by
  show StableHlo.after hostOps1_3 (StableHlo.after hostOps1_2 (StableHlo.after hostOps1_1 (StableHlo.after hostOps1 (W9 m ρ c)))) (Proc.devRef .tc main_arg5) = _
  simp only [hostOps1_3, hostOps1_2, hostOps1_1, hostOps1]
  track_results
  exact (W9_arg5 m ρ c).trans (W8_arg5 m ρ c)

/-! ## When the second launch is left, and the result -/

theorem W14_v67 (c : Dev nD) : W14 m ρ c (Proc.devRef .tc main_v67)
    = Stage.msg2 (F := F) (m ((c.tc : Thread nD τ).loc main_arg0)) (m ((c.tc : Thread nD τ).loc main_arg2)) (m ((c.tc : Thread nD τ).loc main_arg3)) (m ((c.tc : Thread nD τ).loc main_arg4)) (Stage.nrmOf (F := F) (m ((c.tc : Thread nD τ).loc main_arg1))) (Stage.startCol (F := F) (Stage.srcW (F := F) (m ((c.tc : Thread nD τ).loc main_arg1)))) (Stage.dstW (F := F) (m ((c.tc : Thread nD τ).loc main_arg1))) :=
  ((W14_arr m ρ c 2).trans (Cert.KernelIdeal.Regions.final1 (V13 m ρ) c)).trans (by
    show Cert.KernelIdeal.Regions.scale1 (W13 m ρ c (Proc.devRef .tc main_v66)) (W13 m ρ c (Proc.devRef .tc main_v31)) = _
    rw [W13_v66, W13_v31]; rfl)
theorem W14_v32 (c : Dev nD) : W14 m ρ c (Proc.devRef .tc main_v32) = W13 m ρ c (Proc.devRef .tc main_v32) := W14_of_ne m ρ c main_v32 (by decide)
theorem W14_arg5 (c : Dev nD) : W14 m ρ c (Proc.devRef .tc main_arg5) = W13 m ρ c (Proc.devRef .tc main_arg5) := W14_of_ne m ρ c main_arg5 (by decide)

set_option maxHeartbeats 4000000 in
/-- The result buffer after the run: the stage function of the arguments. -/
theorem W15_v75 (c : Dev nD) : W15 m ρ c (Proc.devRef .tc main_v75)
    = Stage.result (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (Stage.nrmOf (F := F) (m ((c.tc : Thread nD τ).loc main_arg1))) (Stage.startCol (F := F) (Stage.srcW (F := F) (m ((c.tc : Thread nD τ).loc main_arg1)))) (Stage.dstW (F := F) (m ((c.tc : Thread nD τ).loc main_arg1))) := by
  show StableHlo.after hostOps2 (W14 m ρ c) (Proc.devRef .tc main_v75) = _
  simp only [hostOps2]
  track_results
  rw [W14_v67, W14_v32, W14_arg5, W13_v32, W13_arg5, W8_v32]
  rfl

end Cert.KernelIdeal.Track

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.Spec.lean ====
/-
  What both programs compute, entry by entry: two rounds of normalised message passing over a list of edges.

  The node table has 200000 rows; the edge list has 13000000 entries (the 12800000 given edges followed by one
  self-loop per node). Three things are read off the edge list once and shared by both programs, so they are
  PARAMETERS here: `nrm e`, the edge's weight; `srcI`, the column of source start indices (a start index is read
  signed and clamped into the table when a row is fetched: `row`); `dst`, the vector of destination words (read
  signed and NOT clamped when a message lands: an edge whose word names no row lands nowhere).

  Round one: node v's feature f is x[v]·W1[f]; every edge carries its source's feature times the edge's weight
  to its destination, where the messages add up; the bias is added and the negative part cut off. Round two: the
  sixteen features of a node are contracted against W2, the result is carried along the edges in the same way, and
  the second bias is added.
-/
import proofs.«139156_j17188459118980_1_alg».proof.Proof.LibRows

noncomputable section

namespace Cert.Spec

open Idealize.ShloMosaic Idealize.ShloMosaic.ValueIdx Idealize.ShloMosaic.StableHlo.Predicate

variable (x : FVec Ideal ⟨2, ![200000, 1]⟩ .f32) (W1 : FVec Ideal ⟨2, ![1, 16]⟩ .f32) (b1 : FVec Ideal ⟨1, ![16]⟩ .f32)
  (W2 : FVec Ideal ⟨2, ![16, 1]⟩ .f32) (b2 : FVec Ideal ⟨1, ![1]⟩ .f32)
  (nrm : FVec Ideal ⟨1, ![13000000]⟩ .f32) (srcI : IVec ⟨2, ![13000000, 1]⟩ 32) (dst : IVec ⟨1, ![13000000]⟩ 32)

/-- The table row edge `e` reads: its source start index, read signed and clamped into the table. -/
def row (e : Fin 13000000) : Fin 200000 := Cert.LibRows.rowOf (N := 200000) (by omega) srcI e

/-- The edges whose message lands on node `v`: those whose destination word, read signed, is `v`. -/
def lands (v : Fin 200000) : Finset (Fin 13000000) :=
  Finset.univ.filter fun e => (dst (ix1 e)).toInt = (v.val : ℤ)

/-- Round one's node features: the node's one input feature times the weight row. -/
def h1 (v : Fin 200000) (f : Fin 16) : EReal := x (ix2 v 0) * W1 (ix2 0 f)

/-- Round one's aggregate at node `v`, feature `f`: the sum over the edges landing on `v` of the source's feature
    times the edge's weight. -/
def o1 (v : Fin 200000) (f : Fin 16) : EReal := ∑ e ∈ lands dst v, h1 x W1 (row srcI e) f * nrm (ix1 e)

/-- Round one's output: the aggregate plus the bias, its negative part cut off. -/
def a1 (v : Fin 200000) (f : Fin 16) : EReal := max (o1 x W1 nrm srcI dst v f + b1 (ix1 f)) 0

/-- Round two's node feature: the sixteen outputs of round one contracted against the second weight column. -/
def h2 (v : Fin 200000) : EReal := ∑ f : Fin 16, a1 x W1 b1 nrm srcI dst v f * W2 (ix2 f 0)

/-- Round two's aggregate at node `v`. -/
def o2 (v : Fin 200000) : EReal := ∑ e ∈ lands dst v, h2 x W1 b1 W2 nrm srcI dst (row srcI e) * nrm (ix1 e)

/-- The result at node `v`: round two's aggregate plus the second bias. -/
def res (v : Fin 200000) : EReal := o2 x W1 b1 W2 nrm srcI dst v + b2 (ix1 0)

end Cert.Spec

end
-- ==== Proof.LibCols.lean ====
/-
  Column gathers, accumulating column scatters and accumulating scatters of a vector, read at an index; and a sum over a
  range whose tail vanishes.

  A table of C rows and N columns (feature-major: one row per feature) is read, or accumulated into, at COLUMNS named
  by a column of n start indices (an [n × 1] array of words). Reading: result column p is the table's column at start
  index p, read signed and clamped into [0, N − 1]. Accumulating: update column e lands on the operand column its
  start index names, read signed and NOT clamped, and is dropped when that is no column of the operand. The same for
  a plain vector of N entries accumulated into from a vector of n updates.
-/
import proofs.«139156_j17188459118980_1_alg».proof.Proof.LibRows
import Idealize.ShloMosaic.Lib.ValueIdxRank1

noncomputable section

namespace Cert.LibCols

open Idealize.ShloMosaic Idealize.ShloMosaic.ValueIdx Idealize.ShloMosaic.StableHlo.Predicate

/-- A column gather read at (q, p): the table at (q, column of start index p). -/
theorem gather_cols {α : Type} {N C n w : ℕ} (d : GatherDims ⟨2, ![C, N]⟩ ⟨2, ![n, 1]⟩ ⟨2, ![C, n]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![n, 1]⟩ w) (hN : 0 < N) (q : Fin C) (p : Fin n) :
    Host.gather d x idx (ix2 q p) = x (ix2 q (Cert.LibRows.rowOf hN idx p)) := by
  unfold Host.gather
  congr 1
  funext a
  apply Fin.ext
  have hnb : ∀ a : Fin 2, a ∉ d.operandBatchingDims := fun a => by rw [hob]; exact List.not_mem_nil
  -- the result's batch axes are axis 1 alone, its offset axes axis 0 alone
  have hbd : ∀ X ∈ d.batchDims, X = (1 : Fin 2) := by
    intro X hX
    have : d.batchDims = [(1 : Fin 2)] := by unfold GatherDims.batchDims; rw [hoff]; rfl
    rw [this] at hX; exact List.mem_singleton.mp hX
  have hod : ∀ X ∈ d.offsetDims, X = (0 : Fin 2) := by
    intro X hX; rw [hoff] at hX; exact List.mem_singleton.mp hX
  have e0 : ∀ X : Fin 2, X = 0 → ((ix2 q p : (⟨2, ![C, n]⟩ : Shape).Idx) X).val = q.val := by rintro _ rfl; rfl
  have e1 : ∀ X : Fin 2, X = 1 → ((ix2 q p : (⟨2, ![C, n]⟩ : Shape).Idx) X).val = p.val := by rintro _ rfl; rfl
  match a with
  | ⟨0, _⟩ =>
    -- axis 0 is the one offset axis: no start, and the offset coordinate is the result's row
    have hk : (0 : Fin 2) ∈ d.sKept := by rw [GatherDims.mem_sKept, hcoll, hob]; simp
    have hm : (0 : Fin 2) ∉ d.startIndexMap := by rw [hsim]; simp
    show d.start (ix2 q p) idx 0 + d.batchCoord (ix2 q p) 0 + d.offCoord (ix2 q p) 0 = q.val
    rw [GatherDims.batchCoord_eq_zero _ _ _ (hnb 0)]
    unfold GatherDims.start GatherDims.offCoord
    rw [dif_neg hm, dif_pos hk]
    simp only [Nat.zero_add, Nat.add_zero]
    exact e0 _ (hod _ (List.getElem_mem _))
  | ⟨1, _⟩ =>
    -- axis 1 is collapsed and start-indexed: its slice has size 1, so the start is clamped into [0, N − 1]
    have hsl : d.sliceSizes 1 = 1 := d.slice_collapsed 1 (by rw [hcoll]; exact List.mem_singleton.mpr rfl)
    have hk : (1 : Fin 2) ∉ d.sKept := by rw [GatherDims.mem_sKept, hcoll]; simp
    have hm : (1 : Fin 2) ∈ d.startIndexMap := by rw [hsim]; exact List.mem_singleton.mpr rfl
    show d.start (ix2 q p) idx 1 + d.batchCoord (ix2 q p) 1 + d.offCoord (ix2 q p) 1 = min (idx (ixP p)).toInt.toNat (N - 1)
    rw [GatherDims.batchCoord_eq_zero _ _ _ (hnb 1), GatherDims.offCoord_eq_zero _ _ _ hk]
    unfold GatherDims.start
    rw [dif_pos hm]
    show min _ (N - d.sliceSizes 1) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e1 _ (hbd _ (List.getElem_mem _))
    | ⟨1, _⟩ =>
      unfold GatherDims.siIdx
      rw [dif_pos (by rw [hivd])]
      show List.idxOf (1 : Fin 2) d.startIndexMap = 0
      rw [hsim]; simp

/-- Where update entry (c, e) of an accumulating column scatter lands: on (c', r) exactly when start index e, read
    signed, is r and the rows agree. -/
private theorem scatter_cols_resultIdx {N C n w : ℕ} (d : ScatterDims ⟨2, ![C, N]⟩ ⟨2, ![n, 1]⟩ ⟨2, ![C, n]⟩)
    (huw : d.updateWindowDims = [0]) (hiw : d.insertedWindowDims = [1]) (hsd : d.scatterDimsToOperandDims = [1])
    (hivd : d.indexVectorDim = 1) (idx : IVec ⟨2, ![n, 1]⟩ w) (c : Fin C) (e : Fin n) (c' : Fin C) (r : Fin N) :
    d.resultIdx? (ix2 c e) idx = some (ix2 c' r) ↔ (idx (ixP e)).toInt = (r.val : ℤ) ∧ c = c' := by
  -- the update's scatter axes are axis 1 alone, its window axes axis 0 alone
  have hus : ∀ X ∈ d.uScatter, X = (1 : Fin 2) := by
    intro X hX
    have : d.uScatter = [(1 : Fin 2)] := by unfold ScatterDims.uScatter; rw [huw]; rfl
    rw [this] at hX; exact List.mem_singleton.mp hX
  have huwd : ∀ X ∈ d.updateWindowDims, X = (0 : Fin 2) := by
    intro X hX; rw [huw] at hX; exact List.mem_singleton.mp hX
  have e0 : ∀ X : Fin 2, X = 0 → ((ix2 c e : (⟨2, ![C, n]⟩ : Shape).Idx) X).val = c.val := by rintro _ rfl; rfl
  have e1 : ∀ X : Fin 2, X = 1 → ((ix2 c e : (⟨2, ![C, n]⟩ : Shape).Idx) X).val = e.val := by rintro _ rfl; rfl
  have hmem_sKept : ∀ a : Fin 2, a ∈ d.sKept ↔ a ∉ d.insertedWindowDims := fun a => by
    simp [ScatterDims.sKept, Shape.kept, List.mem_filter, List.mem_finRange]
  -- the start of the window: nothing on axis 0; the index word, read signed, on axis 1
  have hs0 : d.start (ix2 c e) idx 0 = 0 := by
    have hm : (0 : Fin 2) ∉ d.scatterDimsToOperandDims := by rw [hsd]; simp
    unfold ScatterDims.start
    rw [dif_neg hm]
  have hs1 : d.start (ix2 c e) idx 1 = (idx (ixP e)).toInt := by
    have hm : (1 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e1 _ (hus _ (List.getElem_mem _))
    | ⟨1, _⟩ =>
      unfold ScatterDims.siIdx
      rw [dif_pos (by rw [hivd])]
      show List.idxOf (1 : Fin 2) d.scatterDimsToOperandDims = 0
      rw [hsd]; simp
  -- the window coordinate: the update's row on axis 0; nothing on the inserted axis 1
  have hw0 : d.window (ix2 c e) 0 = c.val := by
    have hk : (0 : Fin 2) ∈ d.sKept := by rw [hmem_sKept, hiw]; simp
    unfold ScatterDims.window
    rw [dif_pos hk]
    exact e0 _ (huwd _ (List.getElem_mem _))
  have hw1 : d.window (ix2 c e) 1 = 0 := by
    have hk : (1 : Fin 2) ∉ d.sKept := by rw [hmem_sKept, hiw]; simp
    unfold ScatterDims.window
    rw [dif_neg hk]
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin1 := (hin 1).1
      rw [hs1, hw1] at hin1
      change ((0 : ℤ) + (c.val : ℤ)).toNat = c'.val at h0
      change ((idx (ixP e)).toInt + ((0 : ℕ) : ℤ)).toNat = r.val at h1
      refine ⟨by omega, Fin.ext (by omega)⟩
    · exact absurd h (by simp)
  · rintro ⟨hi, rfl⟩
    have hin : ∀ a, 0 ≤ d.start (ix2 c e) idx a + d.window (ix2 c e) a ∧
        d.start (ix2 c e) idx a + (d.window (ix2 c e) a : ℤ) < ((⟨2, ![C, N]⟩ : Shape).size a : ℤ) := by
      intro a
      match a with
      | ⟨0, _⟩ =>
        show 0 ≤ d.start (ix2 c e) idx 0 + (d.window (ix2 c e) 0 : ℤ) ∧ d.start (ix2 c e) idx 0 + (d.window (ix2 c e) 0 : ℤ) < (C : ℤ)
        rw [hs0, hw0]; omega
      | ⟨1, _⟩ =>
        show 0 ≤ d.start (ix2 c e) idx 1 + (d.window (ix2 c e) 1 : ℤ) ∧ d.start (ix2 c e) idx 1 + (d.window (ix2 c e) 1 : ℤ) < (N : ℤ)
        rw [hs1, hw1, hi]; omega
    rw [dif_pos hin]
    congr 1
    funext a
    apply Fin.ext
    match a with
    | ⟨0, _⟩ =>
      show (d.start (ix2 c e) idx 0 + (d.window (ix2 c e) 0 : ℤ)).toNat = c.val
      rw [hs0, hw0]; omega
    | ⟨1, _⟩ =>
      show (d.start (ix2 c e) idx 1 + (d.window (ix2 c e) 1 : ℤ)).toNat = r.val
      rw [hs1, hw1, hi]; omega

/-- The accumulating column scatter at the extended reals, read at (c, r): the operand's entry plus the sum over the
    update columns that land on r of their entry in row c. -/
theorem scatterAdd_cols {φ : FTy} {N C n w : ℕ} (d : ScatterDims ⟨2, ![C, N]⟩ ⟨2, ![n, 1]⟩ ⟨2, ![C, n]⟩)
    (huw : d.updateWindowDims = [0]) (hiw : d.insertedWindowDims = [1]) (hsd : d.scatterDimsToOperandDims = [1])
    (hivd : d.indexVectorDim = 1) (x : FVec Ideal ⟨2, ![C, N]⟩ φ) (idx : IVec ⟨2, ![n, 1]⟩ w)
    (upd : FVec Ideal ⟨2, ![C, n]⟩ φ) (c : Fin C) (r : Fin N) :
    Host.scatterAdd d x idx upd (ix2 c r)
      = x (ix2 c r) + ∑ e ∈ Finset.univ.filter (fun e : Fin n => (idx (ixP e)).toInt = (r.val : ℤ)), upd (ix2 c e) := by
  show x (ix2 c r) + ∑ j ∈ Finset.univ.filter (fun j => d.resultIdx? j idx = some (ix2 c r)), upd j = _
  congr 1
  rw [Finset.sum_filter, sum_idx2, Finset.sum_comm, Finset.sum_filter]
  refine Finset.sum_congr rfl fun a _ => ?_
  simp only [scatter_cols_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- Where update entry e of an accumulating scatter of a vector lands: on r exactly when start index e, read signed,
    is r. -/
private theorem scatter_vec_resultIdx {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (r : Fin N) :
    d.resultIdx? (ix1 e) idx = some (ix1 r) ↔ (idx (ixP e)).toInt = (r.val : ℤ) := by
  -- the update's one axis is its scatter axis; it has no window axes
  have e0 : ∀ X : Fin 1, ((ix1 e : (⟨1, ![n]⟩ : Shape).Idx) X).val = e.val := by
    intro X; match X with | ⟨0, _⟩ => rfl
  have hmem_sKept : ∀ a : Fin 1, a ∈ d.sKept ↔ a ∉ d.insertedWindowDims := fun a => by
    simp [ScatterDims.sKept, Shape.kept, List.mem_filter, List.mem_finRange]
  -- the start of the window on the operand's one axis: the index word, read signed
  have hs0 : d.start (ix1 e) idx 0 = (idx (ixP e)).toInt := by
    have hm : (0 : Fin 1) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _
    | ⟨1, _⟩ =>
      unfold ScatterDims.siIdx
      rw [dif_pos (by rw [hivd])]
      show List.idxOf (0 : Fin 1) d.scatterDimsToOperandDims = 0
      rw [hsd]; simp
  -- the window coordinate: nothing, the operand's one axis being inserted
  have hw0 : d.window (ix1 e) 0 = 0 := by
    have hk : (0 : Fin 1) ∉ d.sKept := by rw [hmem_sKept, hiw]; simp
    unfold ScatterDims.window
    rw [dif_neg hk]
  have hr := r.isLt
  unfold ScatterDims.resultIdx?
  constructor
  · intro h
    split at h
    · next hin =>
      have hf := Option.some.inj h
      have h0 := congrArg (fun f => (f 0).val) hf
      simp only [hs0, hw0] at h0
      have hin0 := (hin 0).1
      rw [hs0, hw0] at hin0
      change ((idx (ixP e)).toInt + ((0 : ℕ) : ℤ)).toNat = r.val at h0
      omega
    · exact absurd h (by simp)
  · intro hi
    have hin : ∀ a, 0 ≤ d.start (ix1 e) idx a + d.window (ix1 e) a ∧
        d.start (ix1 e) idx a + (d.window (ix1 e) a : ℤ) < ((⟨1, ![N]⟩ : Shape).size a : ℤ) := by
      intro a
      match a with
      | ⟨0, _⟩ =>
        show 0 ≤ d.start (ix1 e) idx 0 + (d.window (ix1 e) 0 : ℤ) ∧ d.start (ix1 e) idx 0 + (d.window (ix1 e) 0 : ℤ) < (N : ℤ)
        rw [hs0, hw0, hi]; omega
    rw [dif_pos hin]
    congr 1
    funext a
    apply Fin.ext
    match a with
    | ⟨0, _⟩ =>
      show (d.start (ix1 e) idx 0 + (d.window (ix1 e) 0 : ℤ)).toNat = r.val
      rw [hs0, hw0, hi]; omega

/-- The accumulating scatter of a vector into a vector, read at r: the operand's entry plus the sum of the updates that
    land on r. -/
theorem scatterAdd_vec {φ : FTy} {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![n, 1]⟩ w)
    (upd : FVec Ideal ⟨1, ![n]⟩ φ) (r : Fin N) :
    Host.scatterAdd d x idx upd (ix1 r)
      = x (ix1 r) + ∑ e ∈ Finset.univ.filter (fun e : Fin n => (idx (ixP e)).toInt = (r.val : ℤ)), upd (ix1 e) := by
  show x (ix1 r) + ∑ j ∈ Finset.univ.filter (fun j => d.resultIdx? j idx = some (ix1 r)), upd j = _
  congr 1
  rw [Finset.sum_filter, Finset.sum_filter, ← Equiv.sum_comp (idxEquiv1 (n := n)).symm]
  refine Finset.sum_congr rfl fun a _ => ?_
  show (if d.resultIdx? (ix1 a) idx = some (ix1 r) then upd (ix1 a) else 0) = _
  simp only [scatter_vec_resultIdx d huw hiw hsd hivd]

/-- A filtered sum over a range of P terms whose terms from M on vanish is the filtered sum over the first M. -/
theorem sum_filter_extend {β : Type} [AddCommMonoid β] {M P : ℕ} (hMP : M ≤ P) (p : Fin P → Prop) [DecidablePred p]
    (g : Fin P → β) (htail : ∀ e : Fin P, M ≤ e.val → g e = 0) :
    ∑ e ∈ Finset.univ.filter p, g e
      = ∑ e ∈ Finset.univ.filter (fun e : Fin M => p (Fin.castLE hMP e)), g (Fin.castLE hMP e) := by
  classical
  have h := Finset.sum_map (Finset.univ.filter (fun e : Fin M => p (Fin.castLE hMP e))) (Fin.castLEEmb hMP) g
  refine Eq.trans (Eq.symm ?_) h
  apply Finset.sum_subset
  · intro e he
    obtain ⟨a, ha, rfl⟩ := Finset.mem_map.mp he
    exact Finset.mem_filter.mpr ⟨Finset.mem_univ _, (Finset.mem_filter.mp ha).2⟩
  · intro e he hne
    apply htail
    by_contra hlt
    apply hne
    have hlt' : e.val < M := Nat.lt_of_not_le hlt
    refine Finset.mem_map.mpr ⟨⟨e.val, hlt'⟩, Finset.mem_filter.mpr ⟨Finset.mem_univ _, ?_⟩, Fin.ext rfl⟩
    have : Fin.castLE hMP ⟨e.val, hlt'⟩ = e := Fin.ext rfl
    rw [this]; exact (Finset.mem_filter.mp he).2

end Cert.LibCols

end
-- ==== Proof.KernelLayer1.lean ====
/-
  The idealized kernel's first round, read entry by entry at the extended reals.

  The padded tables: an entry below 13000000 is the unpadded table's, an entry from there on is zero — the padding
  value is the integer zero converted — so a padded message is zero times zero, and a sum over the padded range is the sum
  over the edges. A gathered column is the table's column at the edge's clamped source row; the feature table's entry
  (f, u) is W1[f]·x[u]. The aggregate at (f, u) is then the sum over the edges landing on u of the source's feature times
  the edge's weight: the specification's, with the product's factors exchanged.
-/
import proofs.«139156_j17188459118980_1_alg».proof.Proof.KernelStages
import proofs.«139156_j17188459118980_1_alg».proof.Proof.Spec
import proofs.«139156_j17188459118980_1_alg».proof.Proof.LibCols
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws

noncomputable section

namespace Cert.KernelValue

open Cert.KernelIdeal Cert.KernelIdeal.Stage Idealize.ShloMosaic Idealize.ShloMosaic.ValueIdx Idealize.ShloMosaic.StableHlo.Predicate

variable (x : (⟨S200000x1, .f32⟩ : BufTy).Contents (Elt Ideal)) (W1 : (⟨S1x16, .f32⟩ : BufTy).Contents (Elt Ideal))
  (b1 : (⟨S16, .f32⟩ : BufTy).Contents (Elt Ideal)) (W2 : (⟨S16x1, .f32⟩ : BufTy).Contents (Elt Ideal)) (b2 : (⟨S1, .f32⟩ : BufTy).Contents (Elt Ideal))
  (nrm : (⟨S13000000, .f32⟩ : BufTy).Contents (Elt Ideal)) (srcC : (⟨S13000000x1, .i32⟩ : BufTy).Contents (Elt Ideal))
  (dst : (⟨S13000000, .i32⟩ : BufTy).Contents (Elt Ideal))

/-- The padding value: the integer zero converted is the extended real zero. -/
private theorem padZero : (sitofp (F := Ideal) .f32 (constantI S_ 32 0#32)) (Shape.Idx.first Facts₀.h_S_) = 0 := by
  show (((0#32 : BitVec 32).toInt : ℝ) : EReal) = 0
  simp

/-- The padded row of weights below the edges' count: the edge's weight. -/
theorem nrmP_lt (e : Fin 13041664) (h : e.val < 13000000) : nrmP (F := Ideal) nrm (ix2 0 e) = nrm (ix1 ⟨e.val, h⟩) := by
  unfold nrmP
  refine (pad_apply_of_inside _ _ _ _ _ _ _ (ix2 0 e) (ix2 (0 : Fin 1) (⟨e.val, h⟩ : Fin 13000000)) ?_).trans ?_
  · intro a
    match a with
    | ⟨0, _⟩ => rfl
    | ⟨1, _⟩ => show e.val = 0 + e.val * (0 + 1); omega
  · exact shapeCast_a_1a_apply nrm _ 0 ⟨e.val, h⟩

/-- The padded row of weights from the edges' count on: zero. -/
theorem nrmP_ge (e : Fin 13041664) (h : 13000000 ≤ e.val) : nrmP (F := Ideal) nrm (ix2 0 e) = 0 := by
  unfold nrmP
  refine (pad_apply_of_not_inside _ _ _ _ _ _ _ (ix2 0 e) (1 : Fin 2) ?_).trans padZero
  intro hc
  have h3 := hc.2.2
  change (e.val - 0) / (0 + 1) < 13000000 at h3
  omega

/-- The padded column of destination start indices below the edges' count: the edge's destination word. -/
theorem dstPC_lt (e : Fin 13041664) (h : e.val < 13000000) : dstPC (F := Ideal) dst (ixP e) = dst (ix1 ⟨e.val, h⟩) := by
  unfold dstPC
  refine (broadcastInDim_apply _ _ _ (ixP e) (ix1 e) (fun a => match a with
    | ⟨0, _⟩ => by show e.val = if (13041664 : Nat) = 1 then 0 else e.val; rw [if_neg (by decide)])).trans ?_
  refine pad_apply_of_inside _ _ _ _ _ _ _ (ix1 e) (ix1 ⟨e.val, h⟩) ?_
  intro a
  match a with
  | ⟨0, _⟩ => show e.val = 0 + e.val * (0 + 1); omega

/-- The padded column of destination start indices from the edges' count on: the word zero. -/
theorem dstPC_ge (e : Fin 13041664) (h : 13000000 ≤ e.val) : dstPC (F := Ideal) dst (ixP e) = 0#32 := by
  unfold dstPC
  refine (broadcastInDim_apply _ _ _ (ixP e) (ix1 e) (fun a => match a with
    | ⟨0, _⟩ => by show e.val = if (13041664 : Nat) = 1 then 0 else e.val; rw [if_neg (by decide)])).trans ?_
  refine (pad_apply_of_not_inside _ _ _ _ _ _ _ (ix1 e) (0 : Fin 1) ?_).trans rfl
  intro hc
  have h3 := hc.2.2
  change (e.val - 0) / (0 + 1) < 13000000 at h3
  omega

/-- Round one's feature table: W1[f]·x[u]. -/
theorem h1T_apply (f : Fin 16) (u : Fin 200000) : h1T (F := Ideal) x W1 (ix2 f u) = W1 (ix2 0 f) * x (ix2 u 0) := by
  unfold h1T
  rw [mulf_apply]
  congr 1
  · refine (broadcastInDim_apply _ _ _ (ix2 f u) (ix2 f (0 : Fin 1)) (fun a => match a with
      | ⟨0, _⟩ => by show f.val = if (16 : Nat) = 1 then 0 else f.val; rw [if_neg (by decide)]
      | ⟨1, _⟩ => by show (0 : Nat) = if (1 : Nat) = 1 then 0 else u.val; rw [if_pos rfl])).trans ?_
    exact transpose_ix2_apply W1 _ f 0
  · refine (broadcastInDim_apply _ _ _ (ix2 f u) (ix2 (0 : Fin 1) u) (fun a => match a with
      | ⟨0, _⟩ => by show (0 : Nat) = if (1 : Nat) = 1 then 0 else f.val; rw [if_pos rfl]
      | ⟨1, _⟩ => by show u.val = if (200000 : Nat) = 1 then 0 else u.val; rw [if_neg (by decide)])).trans ?_
    refine shapeCast_apply x _ _ (ix2 u (0 : Fin 1)) ?_
    rw [Shape.rowMajor_val_two, Shape.rowMajor_val_two]
    show u.val * 1 + 0 = 0 * 200000 + u.val
    omega

/-- The padded gathered features below the edges' count: the feature table at the edge's clamped source row. -/
theorem g1P_lt (f : Fin 16) (e : Fin 13041664) (h : e.val < 13000000) :
    g1P (F := Ideal) x W1 srcC (ix2 f e) = h1T (F := Ideal) x W1 (ix2 f (Cert.Spec.row srcC ⟨e.val, h⟩)) := by
  unfold g1P
  refine (pad_apply_of_inside _ _ _ _ _ _ _ (ix2 f e) (ix2 f (⟨e.val, h⟩ : Fin 13000000)) ?_).trans ?_
  · intro a
    match a with
    | ⟨0, _⟩ => show f.val = 0 + f.val * (0 + 1); omega
    | ⟨1, _⟩ => show e.val = 0 + e.val * (0 + 1); omega
  · exact Cert.LibCols.gather_cols gather_S16x200000_S13000000x1_S16x13000000_0_1_n_n_1_1_161 rfl rfl rfl rfl rfl
      (h1T (F := Ideal) x W1) srcC (by omega) f ⟨e.val, h⟩

/-- The padded gathered features from the edges' count on: zero. -/
theorem g1P_ge (f : Fin 16) (e : Fin 13041664) (h : 13000000 ≤ e.val) : g1P (F := Ideal) x W1 srcC (ix2 f e) = 0 := by
  unfold g1P
  refine (pad_apply_of_not_inside _ _ _ _ _ _ _ (ix2 f e) (1 : Fin 2) ?_).trans padZero
  intro hc
  have h3 := hc.2.2
  change (e.val - 0) / (0 + 1) < 13000000 at h3
  omega

/-- A padded message: the padded gathered feature times the padded weight. -/
theorem msg1_apply (f : Fin 16) (e : Fin 13041664) :
    msg1 (F := Ideal) x W1 nrm srcC (ix2 f e) = g1P (F := Ideal) x W1 srcC (ix2 f e) * nrmP (F := Ideal) nrm (ix2 0 e) := by
  show g1P (F := Ideal) x W1 srcC (ix2 f e) * nrmP (F := Ideal) nrm _ = _
  congr 2
  funext d
  match d with
  | ⟨0, _⟩ => rfl
  | ⟨1, _⟩ => rfl

/-- A padded message from the edges' count on: zero times zero. -/
theorem msg1_ge (f : Fin 16) (e : Fin 13041664) (h : 13000000 ≤ e.val) : msg1 (F := Ideal) x W1 nrm srcC (ix2 f e) = 0 := by
  rw [msg1_apply, g1P_ge x W1 srcC f e h, nrmP_ge nrm e h, mul_zero]

/-- A padded message below the edges' count: the specification's, with the first product's factors exchanged. -/
theorem msg1_lt (f : Fin 16) (e : Fin 13041664) (h : e.val < 13000000) :
    msg1 (F := Ideal) x W1 nrm srcC (ix2 f e)
      = Cert.Spec.h1 x W1 (Cert.Spec.row srcC ⟨e.val, h⟩) f * nrm (ix1 ⟨e.val, h⟩) := by
  rw [msg1_apply, g1P_lt x W1 srcC f e h, nrmP_lt nrm e h, h1T_apply]
  unfold Cert.Spec.h1
  rw [mul_comm (W1 (ix2 0 f))]

/-- Round one's aggregate is the specification's. -/
theorem agg1_apply (f : Fin 16) (u : Fin 200000) :
    agg1 (F := Ideal) x W1 nrm srcC dst (ix2 f u) = Cert.Spec.o1 x W1 nrm srcC dst u f := by
  unfold agg1
  refine (Cert.LibCols.scatterAdd_cols scatter_S16x200000_S13041664x1_S16x13041664_0_1_1_1 rfl rfl rfl rfl _ _ _ f u).trans ?_
  -- the operand is zero everywhere
  have hz : (broadcastInDim S16x200000 ![1] Facts₀.bcast_S200000_S16x200000_1
      (broadcastInDim S200000 ![] Facts₀.bcast_S_S200000 (constant (F := Ideal) S_ .f32 0x00000000#32))) (ix2 f u) = 0 := by
    refine (broadcastInDim_apply _ _ _ (ix2 f u) (ix1 u) (fun a => match a with
      | ⟨0, _⟩ => by show u.val = if (200000 : Nat) = 1 then 0 else u.val; rw [if_neg (by decide)])).trans ?_
    refine (broadcastInDim_apply _ _ _ (ix1 u) (fun a => a.elim0) (fun a => a.elim0)).trans ?_
    exact Ideal.ofBits_zero_f32
  rw [hz, zero_add]
  -- the terms from the edges' count on vanish
  rw [Cert.LibCols.sum_filter_extend (M := 13000000) (P := 13041664) (by omega) _ _
    (fun e he => msg1_ge x W1 nrm srcC f e he)]
  unfold Cert.Spec.o1 Cert.Spec.lands
  refine Finset.sum_congr (Finset.filter_congr fun e _ => ?_) fun e _ => ?_
  · rw [dstPC_lt dst (Fin.castLE (by omega) e) e.isLt]
    exact Iff.rfl
  · exact msg1_lt x W1 nrm srcC f (Fin.castLE (by omega) e) e.isLt

/-- Round one's output is the specification's. -/
theorem act1_apply (f : Fin 16) (u : Fin 200000) :
    act1 (F := Ideal) x W1 b1 nrm srcC dst (ix2 f u) = Cert.Spec.a1 x W1 b1 nrm srcC dst u f := by
  unfold act1
  refine (maximumf_apply _ _ (ix2 f u)).trans ?_
  unfold Cert.Spec.a1
  refine congrArg₂ max ((addf_apply _ _ (ix2 f u)).trans (congrArg₂ (· + ·) (agg1_apply x W1 nrm srcC dst f u) ?_)) ?_
  · -- the bias, a column laid along the rows
    refine (broadcastInDim_apply _ _ _ (ix2 f u) (ix2 f (0 : Fin 1)) (fun a => match a with
      | ⟨0, _⟩ => by show f.val = if (16 : Nat) = 1 then 0 else f.val; rw [if_neg (by decide)]
      | ⟨1, _⟩ => by show (0 : Nat) = if (1 : Nat) = 1 then 0 else u.val; rw [if_pos rfl])).trans ?_
    refine shapeCast_apply b1 _ _ (ix1 f) ?_
    rw [Shape.rowMajor_val_one, Shape.rowMajor_val_two]
    show f.val = f.val * 1 + 0
    omega
  · refine (broadcastInDim_apply _ _ _ (ix2 f u) (fun a => a.elim0) (fun a => a.elim0)).trans ?_
    exact Ideal.ofBits_zero_f32

end Cert.KernelValue

end
-- ==== Proof.KernelLayer2.lean ====
/-
  The idealized kernel's second round and its result, read entry by entry at the extended reals.

  The second feature row at node u is the sum over the sixteen features of W2[f] times round one's output — the
  specification's contraction with the product's factors exchanged. Its gathered, padded, weighted messages add up at
  their destinations exactly as round one's do, and the result is that aggregate plus the second bias.
-/
import proofs.«139156_j17188459118980_1_alg».proof.Proof.KernelLayer1

noncomputable section

namespace Cert.KernelValue

open Cert.KernelIdeal Cert.KernelIdeal.Stage Idealize.ShloMosaic Idealize.ShloMosaic.ValueIdx Idealize.ShloMosaic.StableHlo.Predicate

variable (x : (⟨S200000x1, .f32⟩ : BufTy).Contents (Elt Ideal)) (W1 : (⟨S1x16, .f32⟩ : BufTy).Contents (Elt Ideal))
  (b1 : (⟨S16, .f32⟩ : BufTy).Contents (Elt Ideal)) (W2 : (⟨S16x1, .f32⟩ : BufTy).Contents (Elt Ideal)) (b2 : (⟨S1, .f32⟩ : BufTy).Contents (Elt Ideal))
  (nrm : (⟨S13000000, .f32⟩ : BufTy).Contents (Elt Ideal)) (srcC : (⟨S13000000x1, .i32⟩ : BufTy).Contents (Elt Ideal))
  (dst : (⟨S13000000, .i32⟩ : BufTy).Contents (Elt Ideal))

/-- The source index of a sum over the sixteen features at node u is (f, u). -/
private theorem lift_feat (hR : S16x200000.Reduces [0] S200000) (u : Fin 200000) (f : Fin 16) :
    hR.lift (ix1 u) f = ix2 f u := by
  funext a
  match a with
  | ⟨0, _⟩ => exact Fin.ext rfl
  | ⟨1, _⟩ => exact Fin.ext rfl

/-- Round two's feature row is the specification's contraction. -/
theorem h2T_apply (u : Fin 200000) :
    h2T (F := Ideal) x W1 b1 W2 nrm srcC dst (ix2 0 u) = Cert.Spec.h2 x W1 b1 W2 nrm srcC dst u := by
  unfold h2T
  refine (broadcastInDim_apply _ Facts₀.bcast_S200000_S1x200000_1 _ (ix2 0 u) (ix1 u) (fun a => match a with
    | ⟨0, _⟩ => by show u.val = if (200000 : Nat) = 1 then 0 else u.val; rw [if_neg (by decide)])).trans ?_
  rw [hostReduceAdd_apply]
  have hR : S16x200000.Reduces [0] S200000 := by decide
  rw [Ideal.hostReduceAdd_single _ hR]
  show constant (F := Ideal) S_ .f32 0x00000000#32 (Shape.Idx.first Facts₀.h_S_) + ∑ f : Fin 16, _ = _
  rw [constant_apply, Ideal.ofBits_zero_f32, zero_add]
  unfold Cert.Spec.h2
  refine Finset.sum_congr rfl fun f _ => ?_
  rw [lift_feat hR u f, mulf_apply, act1_apply, mul_comm]
  congr 1
  exact broadcastInDim_apply _ Facts₀.bcast_S16x1_S16x200000_0_1 W2 (ix2 f u) (ix2 f 0) (fun a => match a with
    | ⟨0, _⟩ => by show f.val = if (16 : Nat) = 1 then 0 else f.val; rw [if_neg (by decide)]
    | ⟨1, _⟩ => by show (0 : Nat) = if (1 : Nat) = 1 then 0 else u.val; rw [if_pos rfl])

/-- The padding value: the integer zero converted is the extended real zero. -/
private theorem padZero2 : (sitofp (F := Ideal) .f32 (constantI S_ 32 0#32)) (Shape.Idx.first Facts₀.h_S_) = 0 := by
  show (((0#32 : BitVec 32).toInt : ℝ) : EReal) = 0
  simp

/-- The padded gathered row below the edges' count: round two's feature row at the edge's clamped source node. -/
theorem g2P_lt (e : Fin 13041664) (h : e.val < 13000000) :
    g2P (F := Ideal) x W1 b1 W2 nrm srcC dst (ix2 0 e)
      = h2T (F := Ideal) x W1 b1 W2 nrm srcC dst (ix2 0 (Cert.Spec.row srcC ⟨e.val, h⟩)) := by
  unfold g2P
  refine (pad_apply_of_inside _ _ _ _ _ _ _ (ix2 0 e) (ix2 (0 : Fin 1) (⟨e.val, h⟩ : Fin 13000000)) ?_).trans ?_
  · intro a
    match a with
    | ⟨0, _⟩ => rfl
    | ⟨1, _⟩ => show e.val = 0 + e.val * (0 + 1); omega
  · exact Cert.LibCols.gather_cols gather_S1x200000_S13000000x1_S1x13000000_0_1_n_n_1_1_11 rfl rfl rfl rfl rfl
      (h2T (F := Ideal) x W1 b1 W2 nrm srcC dst) srcC (by omega) 0 ⟨e.val, h⟩

/-- The padded gathered row from the edges' count on: zero. -/
theorem g2P_ge (e : Fin 13041664) (h : 13000000 ≤ e.val) : g2P (F := Ideal) x W1 b1 W2 nrm srcC dst (ix2 0 e) = 0 := by
  unfold g2P
  refine (pad_apply_of_not_inside _ _ _ _ _ _ _ (ix2 0 e) (1 : Fin 2) ?_).trans padZero2
  intro hc
  have h3 := hc.2.2
  change (e.val - 0) / (0 + 1) < 13000000 at h3
  omega

/-- A padded message of round two: the padded gathered entry times the padded weight. -/
theorem msg2_apply (e : Fin 13041664) :
    msg2 (F := Ideal) x W1 b1 W2 nrm srcC dst (ix2 0 e)
      = g2P (F := Ideal) x W1 b1 W2 nrm srcC dst (ix2 0 e) * nrmP (F := Ideal) nrm (ix2 0 e) := rfl

/-- A padded message from the edges' count on: zero times zero. -/
theorem msg2_ge (e : Fin 13041664) (h : 13000000 ≤ e.val) : msg2 (F := Ideal) x W1 b1 W2 nrm srcC dst (ix2 0 e) = 0 := by
  rw [msg2_apply, g2P_ge x W1 b1 W2 nrm srcC dst e h, nrmP_ge nrm e h, mul_zero]

/-- A padded message below the edges' count: the source node's contraction times the edge's weight. -/
theorem msg2_lt (e : Fin 13041664) (h : e.val < 13000000) :
    msg2 (F := Ideal) x W1 b1 W2 nrm srcC dst (ix2 0 e)
      = Cert.Spec.h2 x W1 b1 W2 nrm srcC dst (Cert.Spec.row srcC ⟨e.val, h⟩) * nrm (ix1 ⟨e.val, h⟩) := by
  rw [msg2_apply, g2P_lt x W1 b1 W2 nrm srcC dst e h, nrmP_lt nrm e h, h2T_apply]

/-- Round two's aggregate is the specification's. -/
theorem agg2_apply (v : Fin 200000) :
    agg2 (F := Ideal) x W1 b1 W2 nrm srcC dst (ix1 v) = Cert.Spec.o2 x W1 b1 W2 nrm srcC dst v := by
  unfold agg2
  refine (Cert.LibCols.scatterAdd_vec scatter_S200000_S13041664x1_S13041664_n_0_0_1 rfl rfl rfl rfl _ _ _ v).trans ?_
  -- the operand is zero everywhere
  have hz : (broadcastInDim S200000 ![] Facts₀.bcast_S_S200000 (constant (F := Ideal) S_ .f32 0x00000000#32)) (ix1 v) = 0 := by
    refine (broadcastInDim_scalar_apply _ _ (ix1 v)).trans ?_
    exact Ideal.ofBits_zero_f32
  rw [hz, zero_add]
  -- the flattened message at e is the one-row table's entry (0, e)
  have hflat : ∀ e : Fin 13041664,
      shapeCast S13041664 (msg2 (F := Ideal) x W1 b1 W2 nrm srcC dst) Facts₀.shapeCasts_S1x13041664_S13041664 (ix1 e)
        = msg2 (F := Ideal) x W1 b1 W2 nrm srcC dst (ix2 0 e) :=
    fun e => shapeCast_1a_a_apply _ _ e
  -- the terms from the edges' count on vanish
  rw [Cert.LibCols.sum_filter_extend (M := 13000000) (P := 13041664) (by omega) _ _
    (fun e he => (hflat e).trans (msg2_ge x W1 b1 W2 nrm srcC dst e he))]
  unfold Cert.Spec.o2 Cert.Spec.lands
  refine Finset.sum_congr (Finset.filter_congr fun e _ => ?_) fun e _ => ?_
  · rw [dstPC_lt dst (Fin.castLE (by omega) e) e.isLt]
    exact Iff.rfl
  · exact (hflat _).trans (msg2_lt x W1 b1 W2 nrm srcC dst (Fin.castLE (by omega) e) e.isLt)

/-- The kernel program's result is the specification's. -/
theorem result_apply (v : Fin 200000) :
    result (F := Ideal) x W1 b1 W2 b2 nrm srcC dst (ix2 v 0) = Cert.Spec.res x W1 b1 W2 b2 nrm srcC dst v := by
  unfold result
  refine (shapeCast_apply _ Facts₀.shapeCasts_S200000_S200000x1 (ix2 v 0) (ix1 v) ?_).trans ?_
  · rw [Shape.rowMajor_val_one, Shape.rowMajor_val_two]
    show v.val = v.val * 1 + 0
    omega
  refine (addf_apply _ _ (ix1 v)).trans ?_
  unfold Cert.Spec.res
  refine congrArg₂ (· + ·) (agg2_apply x W1 b1 W2 nrm srcC dst v) ?_
  -- the bias: its one entry as a scalar, laid along the nodes
  refine (broadcastInDim_scalar_apply _ _ (ix1 v)).trans ?_
  refine shapeCast_apply b2 Facts₀.shapeCasts_S1_S_ ix0 (ix1 0) ?_
  rw [Shape.rowMajor_val_one]
  have hlt := (S_.rowMajor ix0).isLt
  change (S_.rowMajor ix0).val < 1 at hlt
  show (0 : Nat) = _
  omega

end Cert.KernelValue

end
-- ==== Proof.RefValue.lean ====
/-
  The idealized reference, read entry by entry at the extended reals, is the specification.

  Node-major tables: a gathered row is the table's row at the edge's clamped source row, an aggregate the sum over the
  edges landing on the node; the two matrix products are sums over one contracted coordinate (a single term for the
  first, sixteen for the second).
-/
import proofs.«139156_j17188459118980_1_alg».proof.Proof.RefRead
import proofs.«139156_j17188459118980_1_alg».proof.Proof.Spec
import Idealize.ShloMosaic.Lib.IdealHost

noncomputable section

namespace Cert.RefValue

open Cert.ReferenceIdeal Cert.ReferenceIdeal.ReadP Idealize.ShloMosaic Idealize.ShloMosaic.ValueIdx Idealize.ShloMosaic.StableHlo.Predicate

/-- The edge weights are computed twice by the same operations on the same operands. -/
theorem v71_eq {F : FTy → Type} [FloatOps F] (x1 : (⟨S2x12800000, .i32⟩ : BufTy).Contents (Elt F)) :
    val_main_v71 (F := F) x1 = val_main_v30 (F := F) x1 := rfl

/-- Likewise the column of source start indices. -/
theorem v77_eq {F : FTy → Type} [FloatOps F] (x1 : (⟨S2x12800000, .i32⟩ : BufTy).Contents (Elt F)) :
    val_main_v77 (F := F) x1 = val_main_v36 (F := F) x1 := rfl

variable (x0 : (⟨S200000x1, .f32⟩ : BufTy).Contents (Elt Ideal)) (x1 : (⟨S2x12800000, .i32⟩ : BufTy).Contents (Elt Ideal))
  (x2 : (⟨S1x16, .f32⟩ : BufTy).Contents (Elt Ideal)) (x3 : (⟨S16, .f32⟩ : BufTy).Contents (Elt Ideal))
  (x4 : (⟨S16x1, .f32⟩ : BufTy).Contents (Elt Ideal)) (x5 : (⟨S1, .f32⟩ : BufTy).Contents (Elt Ideal))

/-- Round one's node features: the first product contracts an axis of size one, a single term. -/
theorem v7_eq (u : Fin 200000) (f : Fin 16) :
    val_main_v7 (F := Ideal) x0 x2 (ix2 u f) = Cert.Spec.h1 x0 x2 u f := by
  rw [val_main_v7_apply, Fin.sum_univ_one]
  have hl : lidx_main_v7 (ix2 u f) 0 = ix2 u 0 :=
    funext fun a => Fin.ext (by match a with | ⟨0, _⟩ => rfl | ⟨1, _⟩ => rfl)
  have hr : ridx_main_v7 (ix2 u f) 0 = ix2 0 f :=
    funext fun a => Fin.ext (by match a with | ⟨0, _⟩ => rfl | ⟨1, _⟩ => rfl)
  rw [hl, hr]
  rfl

/-- The destination words as a column, read at row e. -/
theorem v42_eq (e : Fin 13000000) : val_main_v42 (F := Ideal) x1 (ixP e) = val_main_v6 (F := Ideal) x1 (ix1 e) := by
  rw [val_main_v42_apply]
  congr 1
  funext a
  match a with
  | ⟨0, _⟩ => rfl

theorem v82_eq (e : Fin 13000000) : val_main_v82 (F := Ideal) x1 (ixP e) = val_main_v6 (F := Ideal) x1 (ix1 e) := by
  rw [val_main_v82_apply]
  congr 1
  funext a
  match a with
  | ⟨0, _⟩ => rfl

/-- The edge weights spread over the sixteen features. -/
theorem v39_eq (e : Fin 13000000) (f : Fin 16) :
    val_main_v39 (F := Ideal) x1 (ix2 e f) = val_main_v30 (F := Ideal) x1 (ix1 e) := by
  rw [val_main_v39_apply, val_main_v38_apply]
  congr 1
  funext a
  match a with
  | ⟨0, _⟩ => rfl

/-- The edge weights as a column. -/
theorem v79_eq (e : Fin 13000000) :
    val_main_v79 (F := Ideal) x1 (ix2 e 0) = val_main_v30 (F := Ideal) x1 (ix1 e) := by
  rw [val_main_v79_apply, v71_eq]
  congr 1
  funext a
  match a with
  | ⟨0, _⟩ => rfl

/-- Round one's messages: the source's feature times the edge's weight. -/
theorem v40_eq (e : Fin 13000000) (f : Fin 16) :
    val_main_v40 (F := Ideal) x0 x1 x2 (ix2 e f)
      = Cert.Spec.h1 x0 x2 (Cert.Spec.row (val_main_v36 (F := Ideal) x1) e) f * val_main_v30 (F := Ideal) x1 (ix1 e) := by
  rw [val_main_v40_apply, v39_eq]
  unfold val_main_v37
  rw [Cert.LibRows.gather_rows _ rfl rfl rfl rfl rfl _ _ (by omega) e f, v7_eq]
  rfl

/-- A broadcast of the constant zero is zero everywhere. -/
theorem v41_eq (i : S200000x16.Idx) : val_main_v41 (F := Ideal) i = 0 := by
  rw [val_main_v41_apply, val_main_cst_8_apply]
  exact Ideal.ofBits_zero_f32

theorem call1_v0_eq (i : S200000x16.Idx) : val_main_call1_v0 (F := Ideal) i = 0 := by
  rw [val_main_call1_v0_apply, val_main_call1_cst_apply]
  exact Ideal.ofBits_zero_f32

theorem v81_eq (i : S200000x1.Idx) : val_main_v81 (F := Ideal) i = 0 := by
  rw [val_main_v81_apply, val_main_cst_19_apply]
  exact Ideal.ofBits_zero_f32

/-- The edges a column of destination words lands on a node are the specification's. -/
theorem lands_eq (col : IVec ⟨2, ![13000000, 1]⟩ 32) (dst : IVec ⟨1, ![13000000]⟩ 32)
    (h : ∀ e : Fin 13000000, col (ixP e) = dst (ix1 e)) (v : Fin 200000) :
    Finset.univ.filter (fun e : Fin 13000000 => (col (ixP e)).toInt = (v.val : ℤ)) = Cert.Spec.lands dst v := by
  unfold Cert.Spec.lands
  exact Finset.filter_congr fun e _ => by rw [h e]

/-- Round one's aggregate: the messages of the edges landing on the node add up, starting from zero. -/
theorem v43_eq (v : Fin 200000) (f : Fin 16) :
    val_main_v43 (F := Ideal) x0 x1 x2 (ix2 v f)
      = Cert.Spec.o1 x0 x2 (val_main_v30 (F := Ideal) x1) (val_main_v36 (F := Ideal) x1) (val_main_v6 (F := Ideal) x1) v f := by
  unfold val_main_v43
  rw [Cert.LibRows.scatterAdd_rows _ rfl rfl rfl rfl, v41_eq, zero_add,
    lands_eq _ (val_main_v6 (F := Ideal) x1) (v42_eq x1) v]
  unfold Cert.Spec.o1
  exact Finset.sum_congr rfl fun e _ => v40_eq x0 x1 x2 e f

/-- The first bias spread over the nodes. -/
theorem v45_eq (v : Fin 200000) (f : Fin 16) : val_main_v45 (F := Ideal) x3 (ix2 v f) = x3 (ix1 f) := by
  rw [val_main_v45_apply, val_main_v44_apply]
  congr 1
  funext a
  match a with
  | ⟨0, _⟩ => rfl

/-- Round one's output: the aggregate plus the bias, its negative part cut off. -/
theorem v47_eq (v : Fin 200000) (f : Fin 16) :
    val_main_v47 (F := Ideal) x0 x1 x2 x3 (ix2 v f)
      = Cert.Spec.a1 x0 x2 x3 (val_main_v30 (F := Ideal) x1) (val_main_v36 (F := Ideal) x1) (val_main_v6 (F := Ideal) x1) v f := by
  rw [val_main_v47_apply, val_main_v46_apply, call1_v0_eq, v43_eq, v45_eq]
  rfl

/-- Round two's node feature: the sixteen outputs of round one contracted against the second weight column. -/
theorem v48_eq (v : Fin 200000) :
    val_main_v48 (F := Ideal) x0 x1 x2 x3 x4 (ix2 v 0)
      = Cert.Spec.h2 x0 x2 x3 x4 (val_main_v30 (F := Ideal) x1) (val_main_v36 (F := Ideal) x1) (val_main_v6 (F := Ideal) x1) v := by
  rw [val_main_v48_apply]
  unfold Cert.Spec.h2
  refine Finset.sum_congr rfl fun k _ => ?_
  have hl : lidx_main_v48 (ix2 v 0) k = ix2 v k :=
    funext fun a => Fin.ext (by match a with | ⟨0, _⟩ => rfl | ⟨1, _⟩ => rfl)
  have hr : ridx_main_v48 (ix2 v 0) k = ix2 k 0 :=
    funext fun a => Fin.ext (by match a with | ⟨0, _⟩ => rfl | ⟨1, _⟩ => rfl)
  rw [hl, hr, v47_eq]

/-- Round two's messages. -/
theorem v80_eq (e : Fin 13000000) :
    val_main_v80 (F := Ideal) x0 x1 x2 x3 x4 (ix2 e 0)
      = Cert.Spec.h2 x0 x2 x3 x4 (val_main_v30 (F := Ideal) x1) (val_main_v36 (F := Ideal) x1) (val_main_v6 (F := Ideal) x1)
          (Cert.Spec.row (val_main_v36 (F := Ideal) x1) e) * val_main_v30 (F := Ideal) x1 (ix1 e) := by
  rw [val_main_v80_apply, v79_eq]
  unfold val_main_v78
  rw [Cert.LibRows.gather_rows _ rfl rfl rfl rfl rfl _ _ (by omega) e 0, v77_eq, v48_eq]
  rfl

/-- Round two's aggregate. -/
theorem v83_eq (v : Fin 200000) :
    val_main_v83 (F := Ideal) x0 x1 x2 x3 x4 (ix2 v 0)
      = Cert.Spec.o2 x0 x2 x3 x4 (val_main_v30 (F := Ideal) x1) (val_main_v36 (F := Ideal) x1) (val_main_v6 (F := Ideal) x1) v := by
  unfold val_main_v83
  rw [Cert.LibRows.scatterAdd_rows _ rfl rfl rfl rfl, v81_eq, zero_add,
    lands_eq _ (val_main_v6 (F := Ideal) x1) (v82_eq x1) v]
  unfold Cert.Spec.o2
  exact Finset.sum_congr rfl fun e _ => v80_eq x0 x1 x2 x3 x4 e

/-- The second bias spread over the nodes. -/
theorem v85_eq (v : Fin 200000) : val_main_v85 (F := Ideal) x5 (ix2 v 0) = x5 (ix1 0) := by
  rw [val_main_v85_apply, val_main_v84_apply]
  congr 1
  funext a
  match a with
  | ⟨0, _⟩ => rfl

/-- The reference's result at node `v` is the specification's, over the reference's own edge weights, source column and
    destination words. -/
theorem ref_apply (v : Fin 200000) :
    val_main_v86 (F := Ideal) x0 x1 x2 x3 x4 x5 (ix2 v 0)
      = Cert.Spec.res x0 x2 x3 x4 x5 (val_main_v30 (F := Ideal) x1) (val_main_v36 (F := Ideal) x1) (val_main_v6 (F := Ideal) x1) v := by
  rw [val_main_v86_apply, v83_eq, v85_eq]
  rfl

end Cert.RefValue

end
-- ==== Proof.Shared.lean ====
/-
  The three values both programs read off the edge list — the edge weights, the column of source start indices, the
  destination words — are the same terms in the two programs: the same operations on the same operand, in the same
  order. Stated at any float family.
-/
import proofs.«139156_j17188459118980_1_alg».proof.Proof.KernelStages
import proofs.«139156_j17188459118980_1_alg».proof.Proof.RefRead

noncomputable section

namespace Cert.Shared

open Idealize.ShloMosaic

variable {F : FTy → Type} [FloatOps F]

/-- The destination words. -/
theorem dst_eq (ei : (⟨Cert.KernelIdeal.S2x12800000, .i32⟩ : BufTy).Contents (Elt F)) :
    Cert.KernelIdeal.Stage.dstW (F := F) ei = Cert.ReferenceIdeal.ReadP.val_main_v6 (F := F) ei := rfl

/-- The column of source start indices. -/
theorem srcC_eq (ei : (⟨Cert.KernelIdeal.S2x12800000, .i32⟩ : BufTy).Contents (Elt F)) :
    Cert.KernelIdeal.Stage.startCol (F := F) (Cert.KernelIdeal.Stage.srcW (F := F) ei) = Cert.ReferenceIdeal.ReadP.val_main_v36 (F := F) ei := rfl

/-- The edge weights. -/
theorem nrm_eq (ei : (⟨Cert.KernelIdeal.S2x12800000, .i32⟩ : BufTy).Contents (Elt F)) :
    Cert.KernelIdeal.Stage.nrmOf (F := F) ei = Cert.ReferenceIdeal.ReadP.val_main_v30 (F := F) ei := rfl

/-- The reference computes the weights and the source column a second time, for its second round: the same terms. -/
theorem nrm2_eq (ei : (⟨Cert.ReferenceIdeal.S2x12800000, .i32⟩ : BufTy).Contents (Elt F)) :
    Cert.ReferenceIdeal.ReadP.val_main_v71 (F := F) ei = Cert.ReferenceIdeal.ReadP.val_main_v30 (F := F) ei := rfl
theorem srcC2_eq (ei : (⟨Cert.ReferenceIdeal.S2x12800000, .i32⟩ : BufTy).Contents (Elt F)) :
    Cert.ReferenceIdeal.ReadP.val_main_v77 (F := F) ei = Cert.ReferenceIdeal.ReadP.val_main_v36 (F := F) ei := rfl

end Cert.Shared

end
-- ==== Proof.lean ====
/-
  Two rounds of normalised message passing on a graph (a two-layer graph convolution): the Pallas program against its
  jnp reference, equal over the extended reals.

  Both programs read the same three things off the edge list, by the same operations: each edge's weight (the product of
  its end nodes' inverse square-root degrees), the column of source start indices and the destination words. Then the
  reference, node-major, forms x·W1, gathers a row per edge, scales it by the edge's weight, adds the rows up at their
  destinations, adds the bias, cuts off the negative part, contracts with W2 and repeats. The Pallas program does the
  same feature-major: tables of sixteen rows (then one) and one column per edge, the edge axis padded with zeros to 199
  blocks of 65536 columns, and only the scaling by the weights done inside its two kernel launches, block by block. A
  padded column carries zero times zero and lands on node 0, where it adds nothing; a product's factors come in the
  other order; the contraction with W2 is a sum over sixteen rows instead of a matrix product. Entry by entry both are
  the function `Cert.Spec.res`: that is `Cert.KernelValue.result_apply` for the Pallas program's stages and
  `Cert.RefValue.ref_apply` for the reference's.

  The two word-level frames and the idealized kernel program's frame are the generated frame certificates; the idealized
  kernel program's run with its result buffer named is the same launch with one more conjunct, and the buffer is
  followed through the run to the stage functions in `Cert.KernelIdeal.Track`; the reference's frame and run are its
  generated run. The ideal pass rewrote nothing, so `preserves` has nothing to state.
-/
import proofs.«139156_j17188459118980_1_alg».proof.Defs
import proofs.«139156_j17188459118980_1_alg».proof.Proof.Gen.Kernel
import proofs.«139156_j17188459118980_1_alg».proof.Proof.Gen.Kernel.Skeleton
import proofs.«139156_j17188459118980_1_alg».proof.Proof.Gen.Kernel.Launch
import proofs.«139156_j17188459118980_1_alg».proof.Proof.Gen.Kernel.Points
import proofs.«139156_j17188459118980_1_alg».proof.Proof.Gen.Kernel.Frame
import proofs.«139156_j17188459118980_1_alg».proof.Proof.Gen.KernelIdeal
import proofs.«139156_j17188459118980_1_alg».proof.Proof.Gen.KernelIdeal.Skeleton
import proofs.«139156_j17188459118980_1_alg».proof.Proof.Gen.KernelIdeal.Launch
import proofs.«139156_j17188459118980_1_alg».proof.Proof.Gen.KernelIdeal.Points
import proofs.«139156_j17188459118980_1_alg».proof.Proof.Gen.KernelIdeal.Frame
import proofs.«139156_j17188459118980_1_alg».proof.Proof.Gen.ReferenceIdeal
import proofs.«139156_j17188459118980_1_alg».proof.Proof.Gen.Pre_finite_inputs
import proofs.«139156_j17188459118980_1_alg».proof.Proof.KernelRun
import proofs.«139156_j17188459118980_1_alg».proof.Proof.KernelTrack
import proofs.«139156_j17188459118980_1_alg».proof.Proof.KernelLayer2
import proofs.«139156_j17188459118980_1_alg».proof.Proof.RefValue
import proofs.«139156_j17188459118980_1_alg».proof.Proof.Shared
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Every index of a one-column table is a row's. -/
theorem idx_col (i : (⟨2, ![200000, 1]⟩ : Shape).Idx) : ∃ v : Fin 200000, i = ix2 v 0 :=
  ⟨i 0, funext fun d => match d with
    | ⟨0, _⟩ => rfl
    | ⟨1, _⟩ => Fin.ext (by show (i 1).val = 0; have h : (i 1).val < 1 := (i 1).isLt; omega)⟩

/-- The reference's result term is the Pallas program's result stage, of arguments that agree: entry by entry both are
    the specification over the same edge weights, source column and destination words. -/
theorem result_eq (x0 : (⟨Cert.KernelIdeal.S200000x1, .f32⟩ : BufTy).Contents (Elt Ideal)) (x1 : (⟨Cert.KernelIdeal.S2x12800000, .i32⟩ : BufTy).Contents (Elt Ideal))
    (x2 : (⟨Cert.KernelIdeal.S1x16, .f32⟩ : BufTy).Contents (Elt Ideal)) (x3 : (⟨Cert.KernelIdeal.S16, .f32⟩ : BufTy).Contents (Elt Ideal))
    (x4 : (⟨Cert.KernelIdeal.S16x1, .f32⟩ : BufTy).Contents (Elt Ideal)) (x5 : (⟨Cert.KernelIdeal.S1, .f32⟩ : BufTy).Contents (Elt Ideal)) :
    Cert.ReferenceIdeal.ReadP.val_main_v86 (F := Ideal) x0 x1 x2 x3 x4 x5
      = Cert.KernelIdeal.Stage.result (F := Ideal) x0 x2 x3 x4 x5 (Cert.KernelIdeal.Stage.nrmOf (F := Ideal) x1)
          (Cert.KernelIdeal.Stage.startCol (F := Ideal) (Cert.KernelIdeal.Stage.srcW (F := Ideal) x1)) (Cert.KernelIdeal.Stage.dstW (F := Ideal) x1) := by
  funext i
  obtain ⟨v, rfl⟩ := idx_col i
  rw [Cert.RefValue.ref_apply, Cert.KernelValue.result_apply, Cert.Shared.nrm_eq, Cert.Shared.srcC_eq, Cert.Shared.dst_eq]

/-- At the extended reals both programs run, from memories agreeing on the arguments, to the same result. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.Track.W15_v75 m ρ c), (h c).2⟩)
    (Cert.KernelIdeal.GenP.run (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v86_eq, (hagree c).1, (hagree c).2.1, (hagree c).2.2.1, (hagree c).2.2.2.1,
    (hagree c).2.2.2.2.1, (hagree c).2.2.2.2.2]
  exact result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
